-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x64 .f32) (main_arg5 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S1x64 : Shape := ⟨2, ![1, 64]⟩
abbrev S10000x64 : Shape := ⟨2, ![10000, 64]⟩
abbrev S400x10000 : Shape := ⟨2, ![400, 10000]⟩
abbrev S400x64 : Shape := ⟨2, ![400, 64]⟩
abbrev S400x128 : Shape := ⟨2, ![400, 128]⟩
abbrev S400 : Shape := ⟨1, ![400]⟩
abbrev S400x1 : Shape := ⟨2, ![400, 1]⟩

abbrev nBuf : Space → Nat
  | .hbm => 9
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x128, .f32⟩
  | .hbm, ⟨7, _⟩ => ⟨S1x64, .f32⟩
  | .hbm, ⟨8, _⟩ => ⟨S10000x64, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x128, .f32⟩
  | .local _ .vmem, ⟨4, _⟩ => ⟨S1x128, .f32⟩
  | .local _ .vmem, ⟨5, _⟩ => ⟨S128x64, .f32⟩
  | .local _ .vmem, ⟨6, _⟩ => ⟨S1x64, .f32⟩
  | .local _ .vmem, ⟨7, _⟩ => ⟨S400x64, .f32⟩
  | .local _ .vmem, ⟨8, _⟩ => ⟨S400x64, .f32⟩
  | .local _ .vmem, ⟨9, _⟩ => ⟨S10000x128, .f32⟩
  | .local _ .vmem, ⟨10, _⟩ => ⟨S10000x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c400_i32 : BitVec 32 := 400#32
  let v22 : BitVec 32 := Scalar.muli arg1 c400_i32
  let v23 : Index := Scalar.indexCast v22
  let c0_14 : Index := 0#32
  ![v23.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S400x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S128_S1x128 : S128.ShapeCasts S1x128
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S128x64_S128x64_0_0 : ∀ a, (![0, 0] : Fin 2 → Nat) a + S128x64.size a ≤ S128x64.size a
  h_S128x64 : 0 < S128x64.numel
  h_S400x64 : 0 < S400x64.numel
  shapeCasts_S400x64_S400x64 : S400x64.ShapeCasts S400x64
  inb_S10000x64_S10000x64_0_0 : ∀ a, (![0, 0] : Fin 2 → Nat) a + S10000x64.size a ≤ S10000x64.size a
  h_S10000x64 : 0 < S10000x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  reduces_S400x64_S400 : S400x64.Reduces [1] S400
  shapeCasts_S400_S400x1 : S400.ShapeCasts S400x1
  broadcasts_S400x1_S400x64 : S400x1.Broadcasts S400x64
  inb_S400x64_S400x64_0_0 : ∀ a, (![0, 0] : Fin 2 → Nat) a + S400x64.size a ≤ S400x64.size a
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x64_S400x64_1_0_0_1_n_n_wf : DotDims.WF S400x128 S128x64 S400x64 [1] [0] [0] [1] [] []
  dot_S400x10000_S10000x64_S400x64_1_0_0_1_n_n_wf : DotDims.WF S400x10000 S10000x64 S400x64 [1] [0] [0] [1] [] []
  hrank0 : 0 < grid0.rank
  k0_off1_inb : ∀ i : grid0.Coords, ∀ (k0_h2 : k0_cond2 i = 1#1), ∀ a, (k0_off1 i) a + S400x64.size a ≤ S10000x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x64.size a ≤ S10000x64.size a
  hwx0_6 : ∀ i : grid0.Coords, EltTy.bits .f32 = 32 ∨ (Rect.block (s := S10000x64) S400x64.size (cc0_transform_6 i) (hinb0_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S400x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S10000x64 : Shape := ⟨2, ![10000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 34
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x64, .f32⟩
  | .hbm, ⟨15, _⟩ => ⟨S10000x64, .f32⟩
  | .hbm, ⟨16, _⟩ => ⟨S1x64, .f32⟩
  | .hbm, ⟨17, _⟩ => ⟨S10000x64, .f32⟩
  | .hbm, ⟨18, _⟩ => ⟨S10000x64, .f32⟩
  | .hbm, ⟨19, _⟩ => ⟨S_, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x64, .f32⟩
  | .hbm, ⟨26, _⟩ => ⟨S10000x64, .f32⟩
  | .hbm, ⟨27, _⟩ => ⟨S10000x64, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S10000x1, .f32⟩
  | .hbm, ⟨32, _⟩ => ⟨S10000x64, .f32⟩
  | .hbm, ⟨33, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_cst : Ref sig .tc := ⟨.hbm, 19, rfl⟩
abbrev main_call1_v0 : Ref sig .tc := ⟨.hbm, 20, rfl⟩
abbrev main_call1_cst_0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_cst_1 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_v11 : Ref sig .tc := ⟨.hbm, 33, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.Kernel.State.lean ====
/-
  What the two carried scratch buffers and the output hold, as functions of the argument arrays.

  The grid has 50 points, t = 25 p + i (phase p, row block i). At the first point the body stores
  s1 = x · W1 into the first scratch; at point i of phase 0 it stores rows 400 i … 400 i + 399 of
  s2 = relu (adj · s1 + b1) · W2 into the second; at point 25 + i it stores block i of
  log_softmax (adj · s2 + b2) into the output window. Every input window but the adjacency's has one
  block (the whole array); the adjacency's block at point t is its row block t mod 25.
-/
import proofs.«128685_g29824252903679_cont_9to1_81_4_alg».proof.Proof.Gen.Kernel.Frame
import proofs.«128685_g29824252903679_cont_9to1_81_4_alg».proof.Proof.Gen.Kernel.Skeleton
import Idealize.ShloMosaic.Lib.ValueIdx

set_option maxRecDepth 16384

noncomputable section

namespace Cert.Kernel.Body

open Idealize.ShloMosaic Idealize.ShloMosaic.TcCoe Idealize.ShloMosaic.ValueIdx
open Idealize.SL Idealize.SL.Sem
open Cert.Kernel Cert.Kernel.Gen

variable {F : FTy → Type} [FloatOps F]
variable (m : (ℓ : Loc nD τ sig) → Buf (Elt F) ℓ)

/-- The grid has 50 points. -/
theorem N50 : cfg0.N = 50 := N_0

/-- Point number `n` of the grid. -/
abbrev pt (n : ℕ) (h : n < 50) : Fin cfg0.N := ⟨n, lt_of_lt_of_eq h N50.symm⟩

/-- The first point. -/
abbrev t0 : Fin cfg0.N := pt 0 (by omega)

/-- s1 = x · W1, what the first point leaves in the first scratch. -/
def s1 (c : Dev nD) : Vec F S10000x128 .f32 := k0_pay1 (iblk m c 0 t0) (iblk m c 2 t0)

/-- Rows 400 i … 400 i + 399 of s2 = relu (adj · s1 + b1) · W2, what point i of phase 0 stores. -/
def s2rows (c : Dev nD) (i : Fin 25) : Vec F S400x64 .f32 :=
  k0_pay2 (iblk m c 1 (pt i.val (by omega))) (s1 m c) (iblk m c 3 t0) (iblk m c 4 t0)

/-- s2 whole: row r is row r mod 400 of row block r / 400. -/
def s2 (c : Dev nD) : Vec F S10000x64 .f32 := fun j =>
  s2rows m c ⟨(j 0).val / 400, by have := (j 0).isLt; exact Nat.div_lt_of_lt_mul (by simpa using this)⟩
    (ix2 ⟨(j 0).val % 400, Nat.mod_lt _ (by norm_num)⟩ (j 1))

/-- Block i of the result, what point 25 + i stores into the output window. -/
def outRows (c : Dev nD) (i : Fin 25) : Vec F S400x64 .f32 :=
  k0_pay3 (iblk m c 1 (pt i.val (by omega))) (s2 m c) (iblk m c 5 t0)

/-- The result whole. -/
def out (c : Dev nD) : Vec F S10000x64 .f32 := fun j =>
  outRows m c ⟨(j 0).val / 400, by have := (j 0).isLt; exact Nat.div_lt_of_lt_mul (by simpa using this)⟩
    (ix2 ⟨(j 0).val % 400, Nat.mod_lt _ (by norm_num)⟩ (j 1))

end Cert.Kernel.Body

end
-- ==== Proof.Kernel.Data.lean ====
/-
  The proof data of the one pipeline: what every window's staging buffer holds after the body at each
  point, and the invariant the body keeps between points.

  Between points the first scratch holds s1 exactly (from the first point on) and the second scratch
  holds s2 on the rows stored so far — rows below 400 n before point n — and anything on the rest; the
  output window's buffer after point t of phase 1 holds the log-softmax block computed from the
  adjacency's block at t, the whole of s2 and the bias.
-/
import proofs.«128685_g29824252903679_cont_9to1_81_4_alg».proof.Proof.Kernel.State
import Idealize.ShloMosaic.Lib.Pipeline.FrameBody

set_option maxRecDepth 16384

noncomputable section

namespace Cert.Kernel.Body

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The two scratch operands, whole scoped buffers passed beside the windows. -/
abbrev scM0 : Memref sig .tc .vmem S10000x128 .f32 := Memref.whole cc0_scratch0
abbrev scM1 : Memref sig .tc .vmem S10000x64 .f32 := Memref.whole cc0_scratch1

/-- `d` is s2 on the rows below 400 n. -/
def AgreeBelow (c : Dev nD) (n : ℕ) (d : Vec F S10000x64 .f32) : Prop :=
  ∀ j : S10000x64.Idx, (j 0).val < 400 * n → d j = s2 m c j

/-- With every row stored, the buffer holds s2. -/
theorem AgreeBelow.eq_s2 {c : Dev nD} {n : ℕ} {d : Vec F S10000x64 .f32} (h : AgreeBelow m c n d) (hn : 25 ≤ n) :
    d = s2 m c :=
  funext fun j => h j (by have h2 : (j 0).val < 10000 := (j 0).isLt; omega)

/-- The invariant before point n: before the first point the scratch buffers hold anything; afterwards the first
    holds s1 and the second s2 on the rows below 400 n. -/
def PhiS (c : Dev nD) : (n : ℕ) → n ≤ cfg0.N → sProp 𝕄
  | 0, _ => Pipeline.ΦA spec0 c
  | n + 1, _ => iprop(iprop(owns (c : Thread nD τ) scM0 fullShare (s1 m c)
        ∗ (∃ d, ⌜AgreeBelow m c (n + 1) d⌝ ∗ owns (c : Thread nD τ) scM1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n + 1 ≤ cfg0.N) :
    PhiS m c (n + 1) hn = iprop(iprop(owns (c : Thread nD τ) scM0 fullShare (s1 m c)
        ∗ (∃ d, ⌜AgreeBelow m c (n + 1) d⌝ ∗ owns (c : Thread nD τ) scM1 fullShare d)) ∗ (∃ r, prngReg c r)) := rfl

theorem PhiS_pos (c : Dev nD) (n : ℕ) (h : n ≤ cfg0.N) (hz : n ≠ 0) :
    PhiS m c n h = iprop(iprop(owns (c : Thread nD τ) scM0 fullShare (s1 m c)
        ∗ (∃ d, ⌜AgreeBelow m c n d⌝ ∗ owns (c : Thread nD τ) scM1 fullShare d)) ∗ (∃ r, prngReg c r)) := by
  cases n with
  | zero => exact absurd rfl hz
  | succ n => rfl

/-- The proof data on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay3 (iblk m c 1 t) (s2 m c) (iblk m c 5 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) :
    (dats m 0 c).after 6 t = k0_pay3 (iblk m c 1 t) (s2 m c) (iblk m c 5 t) := by dsimp only [dats]

end Cert.Kernel.Body

end
-- ==== Proof.Kernel.Runs.lean ====
/-
  The kernel body run once per case of its three conditionals, on whole staging memrefs and the two scratch
  buffers: at the first point it stores s1 whole and then the first 400 rows of s2; at a later point of phase 0
  it stores that point's 400 rows of s2 over what the second scratch held; at a point of phase 1 it stores the
  log-softmax block into the output window and touches neither scratch. The input windows are only loaded.
-/
import proofs.«128685_g29824252903679_cont_9to1_81_4_alg».proof.Proof.Gen.Kernel.Frame
import proofs.«128685_g29824252903679_cont_9to1_81_4_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The three conditions, decided over the grid -/

/-- "phase 0 and row block 0": the first `scf.if`. -/
abbrev cond0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond0 : ∀ t : Fin cfg0.N, cond0 (grid0.coords t) ↔ t.val = 0 :=
  (by decide +kernel : ∀ t : Fin grid0.N, cond0 (grid0.coords t) ↔ t.val = 0)

/-- "phase 0": the second. -/
abbrev cond1 (i : grid0.Coords) : Prop := k0_cond2 i = 1#1
theorem hcond1 : ∀ t : Fin cfg0.N, cond1 (grid0.coords t) ↔ t.val < 25 :=
  (by decide +kernel : ∀ t : Fin grid0.N, cond1 (grid0.coords t) ↔ t.val < 25)

/-- "phase 1": the third. -/
abbrev cond2 (i : grid0.Coords) : Prop := k0_cond3 i = 1#1
theorem hcond2 : ∀ t : Fin cfg0.N, cond2 (grid0.coords t) ↔ 25 ≤ t.val :=
  (by decide +kernel : ∀ t : Fin grid0.N, cond2 (grid0.coords t) ↔ 25 ≤ t.val)

/-- The 400 rows of the second scratch a phase-0 point stores into. -/
abbrev rowsRect (i : grid0.Coords) (hc1 : cond1 i) : Rect S10000x64 :=
  Rect.unit (s := S10000x64) (k0_off1 i) S400x64.size (k0_off1_inb i hc1)

/-- A buffer stored whole reads back the stored value, whatever it held. -/
theorem read_writes_unit_zero {sig' : RefSig} {κ : Kind} {sp : Space} {S : Shape} {e : EltTy} {Val : EltTy → Type} [∀ e, Nonempty (Val e)]
    (v : View sig' κ sp S e) (f : v.ty.Contents Val) {off : Fin S.rank → Nat} (hz : off = fun _ => 0)
    (inb : ∀ a, off a + S.size a ≤ S.size a) (w : S.Idx → Val e) :
    v.read Val (v.writes Val f [(⟨Rect.unit off S.size inb, w⟩ : View.Piece Val S e)]) = w := by
  subst hz
  rw [View.read_writes_eq_canon v f _ (fun y => ⟨_, List.mem_singleton_self _, by
    show y ∈ (Rect.whole S).set; rw [Rect.set_whole]; exact Finset.mem_univ y⟩), View.canon_unit_zero rfl]

/-! ## The first point -/

set_option maxHeartbeats 1000000 in
/-- The inputs and the output window's buffer come back as they were; the first scratch holds s1 = x · W1 whatever it
    held; the second has its first 400 rows, computed from that s1, written over what it held. -/
theorem runA (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : cond0 i) (hc1 : cond1 i) (hc2 : ¬cond2 i)
    (x0 : Vec F S10000x128 .f32) (x1 : Vec F S400x10000 .f32) (x2 : Vec F S128x128 .f32) (x3 : Vec F S1x128 .f32) (x4 : Vec F S128x64 .f32) (x5 : Vec F S1x64 .f32) (xi6 : Vec F S400x64 .f32) (xs1 : Vec F S10000x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare (k0_pay1 x0 x2)
            ∗ (∃ f, ⌜arg10.view.read (Elt F) f = xs1⌝ ∗ arg10.view.loc (c : Thread nD τ) ↦[arg10.view.set]{fullShare} arg10.view.writes (Elt F) f [⟨rowsRect i hc1, k0_pay2 x1 (k0_pay1 x0 x2) x3 x4⟩])) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs1
  sl_exec (disch := first | exact hc0 | exact hc1 | exact hc2)
  sl_step
  sl_unfold_words
  have hz : (![0, 0] : Fin 2 → Nat) = fun _ => 0 := by funext a; match a with | ⟨0, _⟩ => rfl | ⟨1, _⟩ => rfl
  simp only [View.readCov_unit_zero (S := S10000x128) arg9.view hz, View.readAt_eq_ld, harg2.read_unread, harg4.read_unread, harg3.read_unread, harg5.read_unread, harg6.read_unread,
    View.ld_unit_zero (S := S400x10000) hz, View.ld_unit_zero (S := S10000x128) hz, View.ld_unit_zero (S := S1x128) hz,
    View.ld_unit_zero (S := S128x64) hz, View.ld_unit_zero (S := S128x128) hz]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr; swap; · iexact HS0
    ipureintro; exact read_writes_unit_zero arg9.view fs0 hz _ _
  iexists _; isplitr; · ipureintro; exact harg10.read_unread _
  iexact HS1

/-! ## A point of phase 0 after the first -/

set_option maxHeartbeats 1000000 in
/-- The inputs, the output window's buffer and the first scratch come back as they were; the second scratch has the
    point's 400 rows, relu (adjRows · s1 + b1) · W2 of what the first scratch holds, written over what it held. -/
theorem runB (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : ¬cond0 i) (hc1 : cond1 i) (hc2 : ¬cond2 i)
    (x0 : Vec F S10000x128 .f32) (x1 : Vec F S400x10000 .f32) (x2 : Vec F S128x128 .f32) (x3 : Vec F S1x128 .f32) (x4 : Vec F S128x64 .f32) (x5 : Vec F S1x64 .f32) (xi6 : Vec F S400x64 .f32) (xs0 : Vec F S10000x128 .f32) (xs1 : Vec F S10000x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (∃ f, ⌜arg10.view.read (Elt F) f = xs1⌝ ∗ arg10.view.loc (c : Thread nD τ) ↦[arg10.view.set]{fullShare} arg10.view.writes (Elt F) f [⟨rowsRect i hc1, k0_pay2 x1 xs0 x3 x4⟩])) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
  sl_exec (disch := first | exact hc0 | exact hc1 | exact hc2)
  sl_step
  have hz : (![0, 0] : Fin 2 → Nat) = fun _ => 0 := by funext a; match a with | ⟨0, _⟩ => rfl | ⟨1, _⟩ => rfl
  simp only [View.readAt_eq_ld, harg3.read_unread, harg9.read_unread, harg5.read_unread, harg6.read_unread,
    View.ld_unit_zero (S := S400x10000) hz, View.ld_unit_zero (S := S10000x128) hz, View.ld_unit_zero (S := S1x128) hz,
    View.ld_unit_zero (S := S128x64) hz]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr; · ipureintro; exact harg9.read_unread _
    iexact HS0
  iexists _; isplitr; · ipureintro; exact harg10.read_unread _
  iexact HS1

/-! ## A point of phase 1 -/

set_option maxHeartbeats 1000000 in
/-- The inputs and both scratch buffers come back as they were; the output window's buffer holds the log-softmax block
    of adjRows · (the second scratch) + b2. -/
theorem runC (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : ¬cond0 i) (hc1 : ¬cond1 i) (hc2 : cond2 i)
    (x0 : Vec F S10000x128 .f32) (x1 : Vec F S400x10000 .f32) (x2 : Vec F S128x128 .f32) (x3 : Vec F S1x128 .f32) (x4 : Vec F S128x64 .f32) (x5 : Vec F S1x64 .f32) (xs0 : Vec F S10000x128 .f32) (xs1 : Vec F S10000x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay3 x1 xs1 x5) ∗ owns (c : Thread nD τ) arg9 fullShare xs0
            ∗ owns (c : Thread nD τ) arg10 fullShare xs1) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
  sl_exec (disch := first | exact hc0 | exact hc1 | exact hc2)
  sl_step
  have hz : (![0, 0] : Fin 2 → Nat) = fun _ => 0 := by funext a; match a with | ⟨0, _⟩ => rfl | ⟨1, _⟩ => rfl
  simp only [View.readAt_eq_ld, harg3.read_unread, harg10.read_unread, harg7.read_unread,
    View.ld_unit_zero (S := S400x10000) hz, View.ld_unit_zero (S := S10000x64) hz, View.ld_unit_zero (S := S1x64) hz]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro; exact read_writes_unit_zero arg8.view f6 hz _ _
  isplitl [HS0]
  · iexists _; isplitr; · ipureintro; exact harg9.read_unread _
    iexact HS0
  iexists _; isplitr; · ipureintro; exact harg10.read_unread _
  iexact HS1

end Cert.Kernel.Body

end
-- ==== Proof.Kernel.Blocks.lean ====
/-
  The windows' blocks as pieces of the arrays the region finds: every input window but the adjacency's has one
  block, the whole array, at every point; the adjacency's block at point t is rows 400 (t mod 25) … of it; the
  two bias rows are the host's reshapes of the rank-1 arguments; the output window is written back at the
  points of phase 1, block t − 25 at point t.
-/
import proofs.«128685_g29824252903679_cont_9to1_81_4_alg».proof.Proof.Kernel.State
import Idealize.ShloMosaic.Lib.Pipeline.Value

set_option maxRecDepth 16384

noncomputable section

namespace Cert.Kernel.Body

open Idealize.ShloMosaic Idealize.ShloMosaic.TcCoe Idealize.ShloMosaic.ValueIdx
open Idealize.SL Idealize.SL.Sem
open Cert.Kernel Cert.Kernel.Gen

variable {F : FTy → Type} [FloatOps F]
variable (m : (ℓ : Loc nD τ sig) → Buf (Elt F) ℓ)

/-! ## The printed index maps, decided over the grid -/

/-- Window 0's index map is (0, 0) at every point. -/
theorem idx0 : ∀ t : Fin cfg0.N, win0_0.index t 0 = 0 ∧ win0_0.index t 1 = 0 :=
  (by decide +kernel : ∀ t : Fin grid0.N, win0_0.index t 0 = 0 ∧ win0_0.index t 1 = 0)

/-- Window 2's index map is (0, 0) at every point. -/
theorem idx2 : ∀ t : Fin cfg0.N, win0_2.index t 0 = 0 ∧ win0_2.index t 1 = 0 :=
  (by decide +kernel : ∀ t : Fin grid0.N, win0_2.index t 0 = 0 ∧ win0_2.index t 1 = 0)

/-- Window 3's index map is (0, 0) at every point. -/
theorem idx3 : ∀ t : Fin cfg0.N, win0_3.index t 0 = 0 ∧ win0_3.index t 1 = 0 :=
  (by decide +kernel : ∀ t : Fin grid0.N, win0_3.index t 0 = 0 ∧ win0_3.index t 1 = 0)

/-- Window 4's index map is (0, 0) at every point. -/
theorem idx4 : ∀ t : Fin cfg0.N, win0_4.index t 0 = 0 ∧ win0_4.index t 1 = 0 :=
  (by decide +kernel : ∀ t : Fin grid0.N, win0_4.index t 0 = 0 ∧ win0_4.index t 1 = 0)

/-- Window 5's index map is (0, 0) at every point. -/
theorem idx5 : ∀ t : Fin cfg0.N, win0_5.index t 0 = 0 ∧ win0_5.index t 1 = 0 :=
  (by decide +kernel : ∀ t : Fin grid0.N, win0_5.index t 0 = 0 ∧ win0_5.index t 1 = 0)

/-- The adjacency window's index map is (t mod 25, 0). -/
theorem idx1 : ∀ t : Fin cfg0.N, win0_1.index t 0 = t.val % 25 ∧ win0_1.index t 1 = 0 :=
  (by decide +kernel : ∀ t : Fin grid0.N, win0_1.index t 0 = t.val % 25 ∧ win0_1.index t 1 = 0)

/-! ## The one-block windows -/

theorem blk0_const (c : Dev nD) (t : Fin cfg0.N) : (iblk m c 0 t : Vec F S10000x128 .f32) = iblk m c 0 t0 := by
  obtain ⟨e0, e1⟩ := idx0 t
  obtain ⟨f0, f1⟩ := idx0 t0
  funext y
  show V m c main_arg0 (((cfg0.win 0).blk t).view.emb y) = V m c main_arg0 (((cfg0.win 0).blk t0).view.emb y)
  apply congrArg
  funext a; apply Fin.ext
  match a with
  | ⟨0, _⟩ => show win0_0.index t 0 * 10000 + 1 * (y 0).val = win0_0.index t0 0 * 10000 + 1 * (y 0).val; omega
  | ⟨1, _⟩ => show win0_0.index t 1 * 128 + 1 * (y 1).val = win0_0.index t0 1 * 128 + 1 * (y 1).val; omega

theorem blk2_const (c : Dev nD) (t : Fin cfg0.N) : (iblk m c 2 t : Vec F S128x128 .f32) = iblk m c 2 t0 := by
  obtain ⟨e0, e1⟩ := idx2 t
  obtain ⟨f0, f1⟩ := idx2 t0
  funext y
  show V m c main_arg2 (((cfg0.win 2).blk t).view.emb y) = V m c main_arg2 (((cfg0.win 2).blk t0).view.emb y)
  apply congrArg
  funext a; apply Fin.ext
  match a with
  | ⟨0, _⟩ => show win0_2.index t 0 * 128 + 1 * (y 0).val = win0_2.index t0 0 * 128 + 1 * (y 0).val; omega
  | ⟨1, _⟩ => show win0_2.index t 1 * 128 + 1 * (y 1).val = win0_2.index t0 1 * 128 + 1 * (y 1).val; omega

theorem blk3_const (c : Dev nD) (t : Fin cfg0.N) : (iblk m c 3 t : Vec F S1x128 .f32) = iblk m c 3 t0 := by
  obtain ⟨e0, e1⟩ := idx3 t
  obtain ⟨f0, f1⟩ := idx3 t0
  funext y
  show V m c main_v0 (((cfg0.win 3).blk t).view.emb y) = V m c main_v0 (((cfg0.win 3).blk t0).view.emb y)
  apply congrArg
  funext a; apply Fin.ext
  match a with
  | ⟨0, _⟩ => show win0_3.index t 0 * 1 + 1 * (y 0).val = win0_3.index t0 0 * 1 + 1 * (y 0).val; omega
  | ⟨1, _⟩ => show win0_3.index t 1 * 128 + 1 * (y 1).val = win0_3.index t0 1 * 128 + 1 * (y 1).val; omega

theorem blk4_const (c : Dev nD) (t : Fin cfg0.N) : (iblk m c 4 t : Vec F S128x64 .f32) = iblk m c 4 t0 := by
  obtain ⟨e0, e1⟩ := idx4 t
  obtain ⟨f0, f1⟩ := idx4 t0
  funext y
  show V m c main_arg4 (((cfg0.win 4).blk t).view.emb y) = V m c main_arg4 (((cfg0.win 4).blk t0).view.emb y)
  apply congrArg
  funext a; apply Fin.ext
  match a with
  | ⟨0, _⟩ => show win0_4.index t 0 * 128 + 1 * (y 0).val = win0_4.index t0 0 * 128 + 1 * (y 0).val; omega
  | ⟨1, _⟩ => show win0_4.index t 1 * 64 + 1 * (y 1).val = win0_4.index t0 1 * 64 + 1 * (y 1).val; omega

theorem blk5_const (c : Dev nD) (t : Fin cfg0.N) : (iblk m c 5 t : Vec F S1x64 .f32) = iblk m c 5 t0 := by
  obtain ⟨e0, e1⟩ := idx5 t
  obtain ⟨f0, f1⟩ := idx5 t0
  funext y
  show V m c main_v1 (((cfg0.win 5).blk t).view.emb y) = V m c main_v1 (((cfg0.win 5).blk t0).view.emb y)
  apply congrArg
  funext a; apply Fin.ext
  match a with
  | ⟨0, _⟩ => show win0_5.index t 0 * 1 + 1 * (y 0).val = win0_5.index t0 0 * 1 + 1 * (y 0).val; omega
  | ⟨1, _⟩ => show win0_5.index t 1 * 64 + 1 * (y 1).val = win0_5.index t0 1 * 64 + 1 * (y 1).val; omega

/-! ## The adjacency window -/

/-- Two points with the same remainder mod 25 fetch the same row block of the adjacency. -/
theorem blk1_congr (c : Dev nD) (t u : Fin cfg0.N) (h : t.val % 25 = u.val % 25) :
    (iblk m c 1 t : Vec F S400x10000 .f32) = iblk m c 1 u := by
  obtain ⟨e0, e1⟩ := idx1 t
  obtain ⟨f0, f1⟩ := idx1 u
  funext y
  show V m c main_arg1 (((cfg0.win 1).blk t).view.emb y) = V m c main_arg1 (((cfg0.win 1).blk u).view.emb y)
  apply congrArg
  funext a; apply Fin.ext
  match a with
  | ⟨0, _⟩ => show win0_1.index t 0 * 400 + 1 * (y 0).val = win0_1.index u 0 * 400 + 1 * (y 0).val; omega
  | ⟨1, _⟩ => show win0_1.index t 1 * 10000 + 1 * (y 1).val = win0_1.index u 1 * 10000 + 1 * (y 1).val; omega

theorem blk1_mod (c : Dev nD) (t : Fin cfg0.N) :
    (iblk m c 1 t : Vec F S400x10000 .f32) = iblk m c 1 (pt (t.val % 25) (by omega)) :=
  blk1_congr m c t _ (by show t.val % 25 = (t.val % 25) % 25; omega)

/-! ## One block is the whole array -/

theorem blk0_eq (c : Dev nD) : (iblk m c 0 t0 : Vec F S10000x128 .f32) = V m c main_arg0 := by
  obtain ⟨f0, f1⟩ := idx0 t0
  funext y
  show V m c main_arg0 (((cfg0.win 0).blk t0).view.emb y) = V m c main_arg0 y
  apply congrArg
  funext a; apply Fin.ext
  match a with
  | ⟨0, _⟩ => show win0_0.index t0 0 * 10000 + 1 * (y 0).val = (y 0).val; omega
  | ⟨1, _⟩ => show win0_0.index t0 1 * 128 + 1 * (y 1).val = (y 1).val; omega

theorem blk2_eq (c : Dev nD) : (iblk m c 2 t0 : Vec F S128x128 .f32) = V m c main_arg2 := by
  obtain ⟨f0, f1⟩ := idx2 t0
  funext y
  show V m c main_arg2 (((cfg0.win 2).blk t0).view.emb y) = V m c main_arg2 y
  apply congrArg
  funext a; apply Fin.ext
  match a with
  | ⟨0, _⟩ => show win0_2.index t0 0 * 128 + 1 * (y 0).val = (y 0).val; omega
  | ⟨1, _⟩ => show win0_2.index t0 1 * 128 + 1 * (y 1).val = (y 1).val; omega

theorem blk3_eq (c : Dev nD) : (iblk m c 3 t0 : Vec F S1x128 .f32) = V m c main_v0 := by
  obtain ⟨f0, f1⟩ := idx3 t0
  funext y
  show V m c main_v0 (((cfg0.win 3).blk t0).view.emb y) = V m c main_v0 y
  apply congrArg
  funext a; apply Fin.ext
  match a with
  | ⟨0, _⟩ => show win0_3.index t0 0 * 1 + 1 * (y 0).val = (y 0).val; omega
  | ⟨1, _⟩ => show win0_3.index t0 1 * 128 + 1 * (y 1).val = (y 1).val; omega

theorem blk4_eq (c : Dev nD) : (iblk m c 4 t0 : Vec F S128x64 .f32) = V m c main_arg4 := by
  obtain ⟨f0, f1⟩ := idx4 t0
  funext y
  show V m c main_arg4 (((cfg0.win 4).blk t0).view.emb y) = V m c main_arg4 y
  apply congrArg
  funext a; apply Fin.ext
  match a with
  | ⟨0, _⟩ => show win0_4.index t0 0 * 128 + 1 * (y 0).val = (y 0).val; omega
  | ⟨1, _⟩ => show win0_4.index t0 1 * 64 + 1 * (y 1).val = (y 1).val; omega

theorem blk5_eq (c : Dev nD) : (iblk m c 5 t0 : Vec F S1x64 .f32) = V m c main_v1 := by
  obtain ⟨f0, f1⟩ := idx5 t0
  funext y
  show V m c main_v1 (((cfg0.win 5).blk t0).view.emb y) = V m c main_v1 y
  apply congrArg
  funext a; apply Fin.ext
  match a with
  | ⟨0, _⟩ => show win0_5.index t0 0 * 1 + 1 * (y 0).val = (y 0).val; omega
  | ⟨1, _⟩ => show win0_5.index t0 1 * 64 + 1 * (y 1).val = (y 1).val; omega

/-- An element of the adjacency's block at a point with remainder q: row 400 q + r of the array. -/
theorem blk1_apply_at (c : Dev nD) (u : Fin cfg0.N) (q : ℕ) (hq : u.val % 25 = q) (r : Fin 400) (j : Fin 10000)
    (hb : 400 * q + r.val < 10000) :
    (iblk m c 1 u : Vec F S400x10000 .f32) (ix2 r j)
      = (V m c main_arg1 : Vec F S10000x10000 .f32) (ix2 ⟨400 * q + r.val, hb⟩ j) := by
  obtain ⟨f0, f1⟩ := idx1 u
  show V m c main_arg1 (((cfg0.win 1).blk u).view.emb (ix2 r j)) = V m c main_arg1 (ix2 ⟨400 * q + r.val, hb⟩ j)
  apply congrArg
  funext a; apply Fin.ext
  match a with
  | ⟨0, _⟩ => show win0_1.index u 0 * 400 + 1 * r.val = 400 * q + r.val; omega
  | ⟨1, _⟩ => show win0_1.index u 1 * 10000 + 1 * j.val = j.val; omega

theorem blk1_apply (c : Dev nD) (i : Fin 25) (r : Fin 400) (j : Fin 10000) :
    (iblk m c 1 (pt i.val (by omega)) : Vec F S400x10000 .f32) (ix2 r j)
      = (V m c main_arg1 : Vec F S10000x10000 .f32) (ix2 ⟨400 * i.val + r.val, by omega⟩ j) :=
  blk1_apply_at m c _ i.val (by show i.val % 25 = i.val; have := i.isLt; omega) r j _

/-! ## The two bias rows: the host's reshapes -/

theorem v0_apply (c : Dev nD) (k : Fin 128) :
    (V m c main_v0 : Vec F S1x128 .f32) (ix2 0 k) = (m ((c : Thread nD τ).loc main_arg3) : Vec F S128 .f32) (ix1 k) := by
  have e : (V m c main_v0 : Vec F S1x128 .f32)
      = shapeCast S1x128 (m ((c : Thread nD τ).loc main_arg3) : Vec F S128 .f32) shapeCasts_S128_S1x128 := by
    dsimp only [Gen.V, Gen.hostOps0]; after_results; rfl
  rw [e]
  exact shapeCast_apply (s := S128) (t := S1x128) _ _ (ix2 0 k) (ix1 k) (by
    show (S128.rowMajor (ix1 k)).val = (S1x128.rowMajor (ix2 0 k)).val
    rw [Shape.rowMajor_val_two, Shape.rowMajor_val_one]
    show k.val = 0 * 128 + k.val
    omega)

theorem v1_apply (c : Dev nD) (k : Fin 64) :
    (V m c main_v1 : Vec F S1x64 .f32) (ix2 0 k) = (m ((c : Thread nD τ).loc main_arg5) : Vec F S64 .f32) (ix1 k) := by
  have e : (V m c main_v1 : Vec F S1x64 .f32)
      = shapeCast S1x64 (m ((c : Thread nD τ).loc main_arg5) : Vec F S64 .f32) shapeCasts_S64_S1x64 := by
    dsimp only [Gen.V, Gen.hostOps0]; after_results; rfl
  rw [e]
  exact shapeCast_apply (s := S64) (t := S1x64) _ _ (ix2 0 k) (ix1 k) (by
    show (S64.rowMajor (ix1 k)).val = (S1x64.rowMajor (ix2 0 k)).val
    rw [Shape.rowMajor_val_two, Shape.rowMajor_val_one]
    show k.val = 0 * 64 + k.val
    omega)

/-! ## The output window's schedule -/

theorem flush6_iff : ∀ t : Fin cfg0.N, (cfg0.win 6).flush t = true ↔ 25 ≤ t.val :=
  (by decide +kernel : ∀ t : Fin grid0.N, win0_6.flush t = true ↔ 25 ≤ t.val)

theorem index6 : ∀ t : Fin cfg0.N, 25 ≤ t.val → (cfg0.win 6).index t 0 = t.val - 25 ∧ (cfg0.win 6).index t 1 = 0 :=
  (by decide +kernel : ∀ t : Fin grid0.N, 25 ≤ t.val → win0_6.index t 0 = t.val - 25 ∧ win0_6.index t 1 = 0)

end Cert.Kernel.Body

end
-- ==== Proof.Kernel.Agree.lean ====
/-
  One phase-0 point's store keeps the second scratch's invariant: if the buffer held s2 on the rows below 400 t
  and point t < 25 writes relu (adjRows t · s1 + b1) · W2 through the rectangle of rows 400 t … 400 t + 399, it
  holds s2 on the rows below 400 (t + 1) — the rectangle's rows read the stored block, which is s2's row block t
  by definition, and the rows below it are untouched.
-/
import proofs.«128685_g29824252903679_cont_9to1_81_4_alg».proof.Proof.Kernel.Data
import proofs.«128685_g29824252903679_cont_9to1_81_4_alg».proof.Proof.Kernel.Blocks
import proofs.«128685_g29824252903679_cont_9to1_81_4_alg».proof.Proof.Kernel.Runs

set_option maxRecDepth 16384

noncomputable section

namespace Cert.Kernel.Body

open Idealize.ShloMosaic Idealize.ShloMosaic.TcCoe Idealize.ShloMosaic.ValueIdx
open Idealize.SL Idealize.SL.Sem
open Cert.Kernel Cert.Kernel.Gen

variable {F : FTy → Type} [FloatOps F]
variable (m : (ℓ : Loc nD τ sig) → Buf (Elt F) ℓ)

/-- Where a phase-0 point's rows start. -/
theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])

/-- A row block of s2 read at equal coordinates: the block number and the two coordinates compared as naturals. -/
theorem s2rows_congr (c : Dev nD) (i i' : Fin 25) (x x' : S400x64.Idx) (hi : i.val = i'.val)
    (h0 : (x 0).val = (x' 0).val) (h1 : (x 1).val = (x' 1).val) : s2rows m c i x = s2rows m c i' x' := by
  obtain rfl : i = i' := Fin.ext hi
  refine congrArg _ (funext fun a => Fin.ext ?_)
  match a with
  | ⟨0, _⟩ => exact h0
  | ⟨1, _⟩ => exact h1

/-- The invariant's step at a point of phase 0. -/
theorem agree_step (c : Dev nD) (t : Fin cfg0.N) (ht : t.val < 25) (hc1 : cond1 (grid0.coords t))
    (f : (scM1 : Memref sig .tc .vmem S10000x64 .f32).view.ty.Contents (Elt F)) (d : Vec F S10000x64 .f32)
    (hf : (scM1 : Memref sig .tc .vmem S10000x64 .f32).view.read (Elt F) f = d) (hd : AgreeBelow m c t.val d) :
    AgreeBelow m c (t.val + 1)
      ((scM1 : Memref sig .tc .vmem S10000x64 .f32).view.read (Elt F)
        ((scM1 : Memref sig .tc .vmem S10000x64 .f32).view.writes (Elt F) f
          [⟨rowsRect (grid0.coords t) hc1, k0_pay2 (iblk m c 1 t) (s1 m c) (iblk m c 3 t) (iblk m c 4 t)⟩])) := by
  intro j hj
  have hoff := off1_eq t ht
  have hoff0 : k0_off1 (grid0.coords t) 0 = 400 * t.val := by rw [hoff]; rfl
  have hoff1 : k0_off1 (grid0.coords t) 1 = 0 := by rw [hoff]; rfl
  by_cases hmem : j ∈ (rowsRect (grid0.coords t) hc1).set
  · obtain ⟨x, rfl⟩ : ∃ x, (rowsRect (grid0.coords t) hc1).emb x = j := (rowsRect (grid0.coords t) hc1).exists_idx_of_mem hmem
    rw [View.read_writes_cons_emb]
    have hx0 : (x 0).val < 400 := (x 0).isLt
    have e0 : (((rowsRect (grid0.coords t) hc1).emb x) 0).val = 400 * t.val + (x 0).val := by
      rw [Rect.emb_apply]
      show k0_off1 (grid0.coords t) 0 + 1 * (x 0).val = _
      rw [hoff0, Nat.one_mul]
    have e1 : (((rowsRect (grid0.coords t) hc1).emb x) 1).val = (x 1).val := by
      rw [Rect.emb_apply]
      show k0_off1 (grid0.coords t) 1 + 1 * (x 1).val = _
      rw [hoff1, Nat.one_mul, Nat.zero_add]
    rw [blk3_const m c t, blk4_const m c t]
    have hp : k0_pay2 (iblk m c 1 t) (s1 m c) (iblk m c 3 t0) (iblk m c 4 t0) = s2rows m c ⟨t.val, ht⟩ := rfl
    rw [hp]
    unfold s2
    refine s2rows_congr m c _ _ _ _ ?_ ?_ ?_
    · show t.val = (((rowsRect (grid0.coords t) hc1).emb x) 0).val / 400
      rw [e0]; omega
    · show (x 0).val = (((rowsRect (grid0.coords t) hc1).emb x) 0).val % 400
      rw [e0]; omega
    · show (x 1).val = (((rowsRect (grid0.coords t) hc1).emb x) 1).val
      rw [e1]
  · rw [View.read_writes_apply_of_forall_not_mem _ _ j _ (fun p hp => by
      rw [List.mem_singleton] at hp; subst hp; exact hmem), hf]
    refine hd j ?_
    rw [Rect.mem_set_unit] at hmem
    by_contra hge
    refine hmem fun a => ?_
    have hj1 : (j 1).val < 64 := (j 1).isLt
    match a with
    | ⟨0, _⟩ =>
      show k0_off1 (grid0.coords t) 0 ≤ (j 0).val ∧ (j 0).val < k0_off1 (grid0.coords t) 0 + 400
      rw [hoff0]; omega
    | ⟨1, _⟩ =>
      show k0_off1 (grid0.coords t) 1 ≤ (j 1).val ∧ (j 1).val < k0_off1 (grid0.coords t) 1 + 64
      rw [hoff1]; omega

end Cert.Kernel.Body

end
-- ==== Proof.Kernel.Body.lean ====
/-
  The body obligation of the one pipeline and the run it gives: at every point the kernel body, run on the
  windows' current staging buffers and the two scratch buffers, takes the invariant before the point to the
  invariant after it and leaves every window's buffer at what the proof data says — the inputs at their
  blocks, the output window's untouched in phase 0 (where it is neither stored nor written back) and at the
  point's log-softmax block in phase 1.
-/
import proofs.«128685_g29824252903679_cont_9to1_81_4_alg».proof.Proof.Kernel.Data
import proofs.«128685_g29824252903679_cont_9to1_81_4_alg».proof.Proof.Kernel.Runs
import proofs.«128685_g29824252903679_cont_9to1_81_4_alg».proof.Proof.Kernel.Agree

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs at a point, and the class's invariant opened -/

abbrev ms0 (t : Fin cfg0.N) : Memref sig .tc .vmem S10000x128 .f32 := win0_0.stage (cfg0.slots t 0)
abbrev ms1 (t : Fin cfg0.N) : Memref sig .tc .vmem S400x10000 .f32 := win0_1.stage (cfg0.slots t 1)
abbrev ms2 (t : Fin cfg0.N) : Memref sig .tc .vmem S128x128 .f32 := win0_2.stage (cfg0.slots t 2)
abbrev ms3 (t : Fin cfg0.N) : Memref sig .tc .vmem S1x128 .f32 := win0_3.stage (cfg0.slots t 3)
abbrev ms4 (t : Fin cfg0.N) : Memref sig .tc .vmem S128x64 .f32 := win0_4.stage (cfg0.slots t 4)
abbrev ms5 (t : Fin cfg0.N) : Memref sig .tc .vmem S1x64 .f32 := win0_5.stage (cfg0.slots t 5)
abbrev ms6 (t : Fin cfg0.N) : Memref sig .tc .vmem S400x64 .f32 := win0_6.stage (cfg0.slots t 6)

/-- The region's own invariant: both scratch buffers at anything, the generator register at some state. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## Where the windows are idle, and where the output is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The output window is stored only in phase 1: idle, and not written back, at the points of phase 0. -/
theorem idle6_of_lt : ∀ t : Fin cfg0.N, t.val < 25 → cfg0.idle 6 (grid0.coords t) = true := by decide +kernel
theorem live6_of_ge : ∀ t : Fin cfg0.N, 25 ≤ t.val → cfg0.idle 6 (grid0.coords t) = false := by decide +kernel
theorem noflush6_of_lt : ∀ t : Fin cfg0.N, t.val < 25 → (cfg0.win 6).flush t = false := by decide +kernel

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## The body obligation at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 9600000 in
/-- The body at any point, by the three cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  have hN : t.val < 50 := lt_of_lt_of_eq t.isLt N50
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  by_cases h1 : t.val < 25
  · have hc1 : cond1 (grid0.coords t) := (hcond1 t).mpr h1
    have hc2 : ¬cond2 (grid0.coords t) := fun h => absurd ((hcond2 t).mp h) (by omega)
    rw [Dat.leavesExact_idle (dats m 0 c) 6 t (idle6_of_lt t h1) (noflush6_of_lt t h1)]
    by_cases hz : t.val = 0
    · -- the first point: s1 stored whole, then the first 400 rows of s2
      have hc0 : cond0 (grid0.coords t) := (hcond0 t).mpr hz
      have ht0 : t = t0 := Fin.ext hz
      rw [PhiS_castSucc m c t, PhiS_zero m c _ _ hz, PhiA_eq]
      iintro ⟨⟨⟨⟨%ds0, HS0⟩, ⟨%ds1, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply (runA c (grid0.coords t) _ _ _ _ _ _ _ _ _ _ _ _ _ _ _ _ _ _ hc0 hc1 hc2 (iblk m c 0 t) (iblk m c 1 t) (iblk m c 2 t) (iblk m c 3 t) (iblk m c 4 t) (iblk m c 5 t) _ ds1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexact HS1
      iintro ⟨H0, H1, H2, H3, H4, H5, H6, HS0, ⟨%f, %hf, HS1⟩⟩
      isplitl [HS0 HS1 Hg]
      · isplitl [HS0 HS1]
        · isplitl [HS0]
          · rw [show s1 m c = k0_pay1 (iblk m c 0 t) (iblk m c 2 t) from by rw [ht0]; rfl]
            iexact HS0
          iexists _; isplitr
          · ipureintro
            have h := agree_step m c t h1 hc1 f ds1 hf (fun j hj => absurd hj (by omega))
            rw [show s1 m c = k0_pay1 (iblk m c 0 t) (iblk m c 2 t) from by rw [ht0]; rfl] at h
            exact h
          unfold owns; iexists _; isplitr; · ipureintro; rfl
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · -- a later point of phase 0: 400 more rows of s2
      have hc0 : ¬cond0 (grid0.coords t) := fun h => hz ((hcond0 t).mp h)
      rw [PhiS_castSucc m c t, PhiS_pos m c _ _ hz]
      iintro ⟨⟨⟨HS0, ⟨%ds1, %hd, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply (runB c (grid0.coords t) _ _ _ _ _ _ _ _ _ _ _ _ _ _ _ _ _ _ hc0 hc1 hc2 (iblk m c 0 t) (iblk m c 1 t) (iblk m c 2 t) (iblk m c 3 t) (iblk m c 4 t) (iblk m c 5 t) _ (s1 m c) ds1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, ⟨%f, %hf, HS1⟩⟩
      isplitl [HS0 HS1 Hg]
      · isplitl [HS0 HS1]
        · isplitl [HS0]; · iexact HS0
          iexists _; isplitr
          · ipureintro; exact agree_step m c t h1 hc1 f ds1 hf hd
          unfold owns; iexists _; isplitr; · ipureintro; rfl
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · -- a point of phase 1: the second scratch holds s2 whole; the log-softmax block goes to the output window
    have h2 : 25 ≤ t.val := by omega
    have hz : t.val ≠ 0 := by omega
    have hc0 : ¬cond0 (grid0.coords t) := fun h => hz ((hcond0 t).mp h)
    have hc1 : ¬cond1 (grid0.coords t) := fun h => h1 ((hcond1 t).mp h)
    have hc2 : cond2 (grid0.coords t) := (hcond2 t).mpr h2
    rw [show (dats m 0 c).leavesExact 6 t = owns (c : Thread nD τ) (ms6 t) fullShare ((dats m 0 c).after 6 t) from by
      unfold Dat.leavesExact; rw [live6_of_ge t h2], after6]
    rw [PhiS_castSucc m c t, PhiS_pos m c _ _ hz]
    iintro ⟨⟨⟨HS0, ⟨%ds1, %hd, HS1⟩⟩, Hg⟩, Ho, ⟨%d0, H0⟩, ⟨%d1, H1⟩, ⟨%d2, H2⟩, ⟨%d3, H3⟩, ⟨%d4, H4⟩, ⟨%d5, H5⟩, ⟨%d6, H6⟩⟩
    obtain rfl := hd.eq_s2 m h2
    iapply (runC c (grid0.coords t) _ _ _ _ _ _ _ _ _ _ _ _ _ _ _ _ _ _ hc0 hc1 hc2 (iblk m c 0 t) (iblk m c 1 t) (iblk m c 2 t) (iblk m c 3 t) (iblk m c 4 t) (iblk m c 5 t) (s1 m c) (s2 m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]; · iexact HS0
        iexists _; isplitr
        · ipureintro; exact fun j _ => rfl
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the region's own back: what the scratch buffers hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 50 := N50; omega), PhiA_eq]
  iintro ⟨⟨HS0, ⟨%d, %hd, HS1⟩⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates; each array of the pipeline ends at what the proof data computes
    (an input unchanged, the output at its blocks written back in point order), every other buffer as at the region's entry. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.KernelIdeal.State.lean ====
/-
  What the two carried scratch buffers and the output hold, as functions of the argument arrays.

  The grid has 50 points, t = 25 p + i (phase p, row block i). At the first point the body stores
  s1 = x · W1 into the first scratch; at point i of phase 0 it stores rows 400 i … 400 i + 399 of
  s2 = relu (adj · s1 + b1) · W2 into the second; at point 25 + i it stores block i of
  log_softmax (adj · s2 + b2) into the output window. Every input window but the adjacency's has one
  block (the whole array); the adjacency's block at point t is its row block t mod 25.
-/
import proofs.«128685_g29824252903679_cont_9to1_81_4_alg».proof.Proof.Gen.KernelIdeal.Frame
import proofs.«128685_g29824252903679_cont_9to1_81_4_alg».proof.Proof.Gen.KernelIdeal.Skeleton
import Idealize.ShloMosaic.Lib.ValueIdx

set_option maxRecDepth 16384

noncomputable section

namespace Cert.KernelIdeal.Body

open Idealize.ShloMosaic Idealize.ShloMosaic.TcCoe Idealize.ShloMosaic.ValueIdx
open Idealize.SL Idealize.SL.Sem
open Cert.KernelIdeal Cert.KernelIdeal.Gen

variable {F : FTy → Type} [FloatOps F]
variable (m : (ℓ : Loc nD τ sig) → Buf (Elt F) ℓ)

/-- The grid has 50 points. -/
theorem N50 : cfg0.N = 50 := N_0

/-- Point number `n` of the grid. -/
abbrev pt (n : ℕ) (h : n < 50) : Fin cfg0.N := ⟨n, lt_of_lt_of_eq h N50.symm⟩

/-- The first point. -/
abbrev t0 : Fin cfg0.N := pt 0 (by omega)

/-- s1 = x · W1, what the first point leaves in the first scratch. -/
def s1 (c : Dev nD) : Vec F S10000x128 .f32 := k0_pay1 (iblk m c 0 t0) (iblk m c 2 t0)

/-- Rows 400 i … 400 i + 399 of s2 = relu (adj · s1 + b1) · W2, what point i of phase 0 stores. -/
def s2rows (c : Dev nD) (i : Fin 25) : Vec F S400x64 .f32 :=
  k0_pay2 (iblk m c 1 (pt i.val (by omega))) (s1 m c) (iblk m c 3 t0) (iblk m c 4 t0)

/-- s2 whole: row r is row r mod 400 of row block r / 400. -/
def s2 (c : Dev nD) : Vec F S10000x64 .f32 := fun j =>
  s2rows m c ⟨(j 0).val / 400, by have := (j 0).isLt; exact Nat.div_lt_of_lt_mul (by simpa using this)⟩
    (ix2 ⟨(j 0).val % 400, Nat.mod_lt _ (by norm_num)⟩ (j 1))

/-- Block i of the result, what point 25 + i stores into the output window. -/
def outRows (c : Dev nD) (i : Fin 25) : Vec F S400x64 .f32 :=
  k0_pay3 (iblk m c 1 (pt i.val (by omega))) (s2 m c) (iblk m c 5 t0)

/-- The result whole. -/
def out (c : Dev nD) : Vec F S10000x64 .f32 := fun j =>
  outRows m c ⟨(j 0).val / 400, by have := (j 0).isLt; exact Nat.div_lt_of_lt_mul (by simpa using this)⟩
    (ix2 ⟨(j 0).val % 400, Nat.mod_lt _ (by norm_num)⟩ (j 1))

end Cert.KernelIdeal.Body

end
-- ==== Proof.KernelIdeal.Data.lean ====
/-
  The proof data of the one pipeline: what every window's staging buffer holds after the body at each
  point, and the invariant the body keeps between points.

  Between points the first scratch holds s1 exactly (from the first point on) and the second scratch
  holds s2 on the rows stored so far — rows below 400 n before point n — and anything on the rest; the
  output window's buffer after point t of phase 1 holds the log-softmax block computed from the
  adjacency's block at t, the whole of s2 and the bias.
-/
import proofs.«128685_g29824252903679_cont_9to1_81_4_alg».proof.Proof.KernelIdeal.State
import Idealize.ShloMosaic.Lib.Pipeline.FrameBody

set_option maxRecDepth 16384

noncomputable section

namespace Cert.KernelIdeal.Body

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The two scratch operands, whole scoped buffers passed beside the windows. -/
abbrev scM0 : Memref sig .tc .vmem S10000x128 .f32 := Memref.whole cc0_scratch0
abbrev scM1 : Memref sig .tc .vmem S10000x64 .f32 := Memref.whole cc0_scratch1

/-- `d` is s2 on the rows below 400 n. -/
def AgreeBelow (c : Dev nD) (n : ℕ) (d : Vec F S10000x64 .f32) : Prop :=
  ∀ j : S10000x64.Idx, (j 0).val < 400 * n → d j = s2 m c j

/-- With every row stored, the buffer holds s2. -/
theorem AgreeBelow.eq_s2 {c : Dev nD} {n : ℕ} {d : Vec F S10000x64 .f32} (h : AgreeBelow m c n d) (hn : 25 ≤ n) :
    d = s2 m c :=
  funext fun j => h j (by have h2 : (j 0).val < 10000 := (j 0).isLt; omega)

/-- The invariant before point n: before the first point the scratch buffers hold anything; afterwards the first
    holds s1 and the second s2 on the rows below 400 n. -/
def PhiS (c : Dev nD) : (n : ℕ) → n ≤ cfg0.N → sProp 𝕄
  | 0, _ => Pipeline.ΦA spec0 c
  | n + 1, _ => iprop(iprop(owns (c : Thread nD τ) scM0 fullShare (s1 m c)
        ∗ (∃ d, ⌜AgreeBelow m c (n + 1) d⌝ ∗ owns (c : Thread nD τ) scM1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n + 1 ≤ cfg0.N) :
    PhiS m c (n + 1) hn = iprop(iprop(owns (c : Thread nD τ) scM0 fullShare (s1 m c)
        ∗ (∃ d, ⌜AgreeBelow m c (n + 1) d⌝ ∗ owns (c : Thread nD τ) scM1 fullShare d)) ∗ (∃ r, prngReg c r)) := rfl

theorem PhiS_pos (c : Dev nD) (n : ℕ) (h : n ≤ cfg0.N) (hz : n ≠ 0) :
    PhiS m c n h = iprop(iprop(owns (c : Thread nD τ) scM0 fullShare (s1 m c)
        ∗ (∃ d, ⌜AgreeBelow m c n d⌝ ∗ owns (c : Thread nD τ) scM1 fullShare d)) ∗ (∃ r, prngReg c r)) := by
  cases n with
  | zero => exact absurd rfl hz
  | succ n => rfl

/-- The proof data on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay3 (iblk m c 1 t) (s2 m c) (iblk m c 5 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) :
    (dats m 0 c).after 6 t = k0_pay3 (iblk m c 1 t) (s2 m c) (iblk m c 5 t) := by dsimp only [dats]

end Cert.KernelIdeal.Body

end
-- ==== Proof.KernelIdeal.Runs.lean ====
/-
  The kernel body run once per case of its three conditionals, on whole staging memrefs and the two scratch
  buffers: at the first point it stores s1 whole and then the first 400 rows of s2; at a later point of phase 0
  it stores that point's 400 rows of s2 over what the second scratch held; at a point of phase 1 it stores the
  log-softmax block into the output window and touches neither scratch. The input windows are only loaded.
-/
import proofs.«128685_g29824252903679_cont_9to1_81_4_alg».proof.Proof.Gen.KernelIdeal.Frame
import proofs.«128685_g29824252903679_cont_9to1_81_4_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The three conditions, decided over the grid -/

/-- "phase 0 and row block 0": the first `scf.if`. -/
abbrev cond0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond0 : ∀ t : Fin cfg0.N, cond0 (grid0.coords t) ↔ t.val = 0 :=
  (by decide +kernel : ∀ t : Fin grid0.N, cond0 (grid0.coords t) ↔ t.val = 0)

/-- "phase 0": the second. -/
abbrev cond1 (i : grid0.Coords) : Prop := k0_cond2 i = 1#1
theorem hcond1 : ∀ t : Fin cfg0.N, cond1 (grid0.coords t) ↔ t.val < 25 :=
  (by decide +kernel : ∀ t : Fin grid0.N, cond1 (grid0.coords t) ↔ t.val < 25)

/-- "phase 1": the third. -/
abbrev cond2 (i : grid0.Coords) : Prop := k0_cond3 i = 1#1
theorem hcond2 : ∀ t : Fin cfg0.N, cond2 (grid0.coords t) ↔ 25 ≤ t.val :=
  (by decide +kernel : ∀ t : Fin grid0.N, cond2 (grid0.coords t) ↔ 25 ≤ t.val)

/-- The 400 rows of the second scratch a phase-0 point stores into. -/
abbrev rowsRect (i : grid0.Coords) (hc1 : cond1 i) : Rect S10000x64 :=
  Rect.unit (s := S10000x64) (k0_off1 i) S400x64.size (k0_off1_inb i hc1)

/-- A buffer stored whole reads back the stored value, whatever it held. -/
theorem read_writes_unit_zero {sig' : RefSig} {κ : Kind} {sp : Space} {S : Shape} {e : EltTy} {Val : EltTy → Type} [∀ e, Nonempty (Val e)]
    (v : View sig' κ sp S e) (f : v.ty.Contents Val) {off : Fin S.rank → Nat} (hz : off = fun _ => 0)
    (inb : ∀ a, off a + S.size a ≤ S.size a) (w : S.Idx → Val e) :
    v.read Val (v.writes Val f [(⟨Rect.unit off S.size inb, w⟩ : View.Piece Val S e)]) = w := by
  subst hz
  rw [View.read_writes_eq_canon v f _ (fun y => ⟨_, List.mem_singleton_self _, by
    show y ∈ (Rect.whole S).set; rw [Rect.set_whole]; exact Finset.mem_univ y⟩), View.canon_unit_zero rfl]

/-! ## The first point -/

set_option maxHeartbeats 1000000 in
/-- The inputs and the output window's buffer come back as they were; the first scratch holds s1 = x · W1 whatever it
    held; the second has its first 400 rows, computed from that s1, written over what it held. -/
theorem runA (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : cond0 i) (hc1 : cond1 i) (hc2 : ¬cond2 i)
    (x0 : Vec F S10000x128 .f32) (x1 : Vec F S400x10000 .f32) (x2 : Vec F S128x128 .f32) (x3 : Vec F S1x128 .f32) (x4 : Vec F S128x64 .f32) (x5 : Vec F S1x64 .f32) (xi6 : Vec F S400x64 .f32) (xs1 : Vec F S10000x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare (k0_pay1 x0 x2)
            ∗ (∃ f, ⌜arg10.view.read (Elt F) f = xs1⌝ ∗ arg10.view.loc (c : Thread nD τ) ↦[arg10.view.set]{fullShare} arg10.view.writes (Elt F) f [⟨rowsRect i hc1, k0_pay2 x1 (k0_pay1 x0 x2) x3 x4⟩])) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs1
  sl_exec (disch := first | exact hc0 | exact hc1 | exact hc2)
  sl_step
  sl_unfold_words
  have hz : (![0, 0] : Fin 2 → Nat) = fun _ => 0 := by funext a; match a with | ⟨0, _⟩ => rfl | ⟨1, _⟩ => rfl
  simp only [View.readCov_unit_zero (S := S10000x128) arg9.view hz, View.readAt_eq_ld, harg2.read_unread, harg4.read_unread, harg3.read_unread, harg5.read_unread, harg6.read_unread,
    View.ld_unit_zero (S := S400x10000) hz, View.ld_unit_zero (S := S10000x128) hz, View.ld_unit_zero (S := S1x128) hz,
    View.ld_unit_zero (S := S128x64) hz, View.ld_unit_zero (S := S128x128) hz]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr; swap; · iexact HS0
    ipureintro; exact read_writes_unit_zero arg9.view fs0 hz _ _
  iexists _; isplitr; · ipureintro; exact harg10.read_unread _
  iexact HS1

/-! ## A point of phase 0 after the first -/

set_option maxHeartbeats 1000000 in
/-- The inputs, the output window's buffer and the first scratch come back as they were; the second scratch has the
    point's 400 rows, relu (adjRows · s1 + b1) · W2 of what the first scratch holds, written over what it held. -/
theorem runB (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : ¬cond0 i) (hc1 : cond1 i) (hc2 : ¬cond2 i)
    (x0 : Vec F S10000x128 .f32) (x1 : Vec F S400x10000 .f32) (x2 : Vec F S128x128 .f32) (x3 : Vec F S1x128 .f32) (x4 : Vec F S128x64 .f32) (x5 : Vec F S1x64 .f32) (xi6 : Vec F S400x64 .f32) (xs0 : Vec F S10000x128 .f32) (xs1 : Vec F S10000x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (∃ f, ⌜arg10.view.read (Elt F) f = xs1⌝ ∗ arg10.view.loc (c : Thread nD τ) ↦[arg10.view.set]{fullShare} arg10.view.writes (Elt F) f [⟨rowsRect i hc1, k0_pay2 x1 xs0 x3 x4⟩])) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
  sl_exec (disch := first | exact hc0 | exact hc1 | exact hc2)
  sl_step
  have hz : (![0, 0] : Fin 2 → Nat) = fun _ => 0 := by funext a; match a with | ⟨0, _⟩ => rfl | ⟨1, _⟩ => rfl
  simp only [View.readAt_eq_ld, harg3.read_unread, harg9.read_unread, harg5.read_unread, harg6.read_unread,
    View.ld_unit_zero (S := S400x10000) hz, View.ld_unit_zero (S := S10000x128) hz, View.ld_unit_zero (S := S1x128) hz,
    View.ld_unit_zero (S := S128x64) hz]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr; · ipureintro; exact harg9.read_unread _
    iexact HS0
  iexists _; isplitr; · ipureintro; exact harg10.read_unread _
  iexact HS1

/-! ## A point of phase 1 -/

set_option maxHeartbeats 1000000 in
/-- The inputs and both scratch buffers come back as they were; the output window's buffer holds the log-softmax block
    of adjRows · (the second scratch) + b2. -/
theorem runC (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : ¬cond0 i) (hc1 : ¬cond1 i) (hc2 : cond2 i)
    (x0 : Vec F S10000x128 .f32) (x1 : Vec F S400x10000 .f32) (x2 : Vec F S128x128 .f32) (x3 : Vec F S1x128 .f32) (x4 : Vec F S128x64 .f32) (x5 : Vec F S1x64 .f32) (xs0 : Vec F S10000x128 .f32) (xs1 : Vec F S10000x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay3 x1 xs1 x5) ∗ owns (c : Thread nD τ) arg9 fullShare xs0
            ∗ owns (c : Thread nD τ) arg10 fullShare xs1) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
  sl_exec (disch := first | exact hc0 | exact hc1 | exact hc2)
  sl_step
  have hz : (![0, 0] : Fin 2 → Nat) = fun _ => 0 := by funext a; match a with | ⟨0, _⟩ => rfl | ⟨1, _⟩ => rfl
  simp only [View.readAt_eq_ld, harg3.read_unread, harg10.read_unread, harg7.read_unread,
    View.ld_unit_zero (S := S400x10000) hz, View.ld_unit_zero (S := S10000x64) hz, View.ld_unit_zero (S := S1x64) hz]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro; exact read_writes_unit_zero arg8.view f6 hz _ _
  isplitl [HS0]
  · iexists _; isplitr; · ipureintro; exact harg9.read_unread _
    iexact HS0
  iexists _; isplitr; · ipureintro; exact harg10.read_unread _
  iexact HS1

end Cert.KernelIdeal.Body

end
-- ==== Proof.KernelIdeal.Blocks.lean ====
/-
  The windows' blocks as pieces of the arrays the region finds: every input window but the adjacency's has one
  block, the whole array, at every point; the adjacency's block at point t is rows 400 (t mod 25) … of it; the
  two bias rows are the host's reshapes of the rank-1 arguments; the output window is written back at the
  points of phase 1, block t − 25 at point t.
-/
import proofs.«128685_g29824252903679_cont_9to1_81_4_alg».proof.Proof.KernelIdeal.State
import Idealize.ShloMosaic.Lib.Pipeline.Value

set_option maxRecDepth 16384

noncomputable section

namespace Cert.KernelIdeal.Body

open Idealize.ShloMosaic Idealize.ShloMosaic.TcCoe Idealize.ShloMosaic.ValueIdx
open Idealize.SL Idealize.SL.Sem
open Cert.KernelIdeal Cert.KernelIdeal.Gen

variable {F : FTy → Type} [FloatOps F]
variable (m : (ℓ : Loc nD τ sig) → Buf (Elt F) ℓ)

/-! ## The printed index maps, decided over the grid -/

/-- Window 0's index map is (0, 0) at every point. -/
theorem idx0 : ∀ t : Fin cfg0.N, win0_0.index t 0 = 0 ∧ win0_0.index t 1 = 0 :=
  (by decide +kernel : ∀ t : Fin grid0.N, win0_0.index t 0 = 0 ∧ win0_0.index t 1 = 0)

/-- Window 2's index map is (0, 0) at every point. -/
theorem idx2 : ∀ t : Fin cfg0.N, win0_2.index t 0 = 0 ∧ win0_2.index t 1 = 0 :=
  (by decide +kernel : ∀ t : Fin grid0.N, win0_2.index t 0 = 0 ∧ win0_2.index t 1 = 0)

/-- Window 3's index map is (0, 0) at every point. -/
theorem idx3 : ∀ t : Fin cfg0.N, win0_3.index t 0 = 0 ∧ win0_3.index t 1 = 0 :=
  (by decide +kernel : ∀ t : Fin grid0.N, win0_3.index t 0 = 0 ∧ win0_3.index t 1 = 0)

/-- Window 4's index map is (0, 0) at every point. -/
theorem idx4 : ∀ t : Fin cfg0.N, win0_4.index t 0 = 0 ∧ win0_4.index t 1 = 0 :=
  (by decide +kernel : ∀ t : Fin grid0.N, win0_4.index t 0 = 0 ∧ win0_4.index t 1 = 0)

/-- Window 5's index map is (0, 0) at every point. -/
theorem idx5 : ∀ t : Fin cfg0.N, win0_5.index t 0 = 0 ∧ win0_5.index t 1 = 0 :=
  (by decide +kernel : ∀ t : Fin grid0.N, win0_5.index t 0 = 0 ∧ win0_5.index t 1 = 0)

/-- The adjacency window's index map is (t mod 25, 0). -/
theorem idx1 : ∀ t : Fin cfg0.N, win0_1.index t 0 = t.val % 25 ∧ win0_1.index t 1 = 0 :=
  (by decide +kernel : ∀ t : Fin grid0.N, win0_1.index t 0 = t.val % 25 ∧ win0_1.index t 1 = 0)

/-! ## The one-block windows -/

theorem blk0_const (c : Dev nD) (t : Fin cfg0.N) : (iblk m c 0 t : Vec F S10000x128 .f32) = iblk m c 0 t0 := by
  obtain ⟨e0, e1⟩ := idx0 t
  obtain ⟨f0, f1⟩ := idx0 t0
  funext y
  show V m c main_arg0 (((cfg0.win 0).blk t).view.emb y) = V m c main_arg0 (((cfg0.win 0).blk t0).view.emb y)
  apply congrArg
  funext a; apply Fin.ext
  match a with
  | ⟨0, _⟩ => show win0_0.index t 0 * 10000 + 1 * (y 0).val = win0_0.index t0 0 * 10000 + 1 * (y 0).val; omega
  | ⟨1, _⟩ => show win0_0.index t 1 * 128 + 1 * (y 1).val = win0_0.index t0 1 * 128 + 1 * (y 1).val; omega

theorem blk2_const (c : Dev nD) (t : Fin cfg0.N) : (iblk m c 2 t : Vec F S128x128 .f32) = iblk m c 2 t0 := by
  obtain ⟨e0, e1⟩ := idx2 t
  obtain ⟨f0, f1⟩ := idx2 t0
  funext y
  show V m c main_arg2 (((cfg0.win 2).blk t).view.emb y) = V m c main_arg2 (((cfg0.win 2).blk t0).view.emb y)
  apply congrArg
  funext a; apply Fin.ext
  match a with
  | ⟨0, _⟩ => show win0_2.index t 0 * 128 + 1 * (y 0).val = win0_2.index t0 0 * 128 + 1 * (y 0).val; omega
  | ⟨1, _⟩ => show win0_2.index t 1 * 128 + 1 * (y 1).val = win0_2.index t0 1 * 128 + 1 * (y 1).val; omega

theorem blk3_const (c : Dev nD) (t : Fin cfg0.N) : (iblk m c 3 t : Vec F S1x128 .f32) = iblk m c 3 t0 := by
  obtain ⟨e0, e1⟩ := idx3 t
  obtain ⟨f0, f1⟩ := idx3 t0
  funext y
  show V m c main_v0 (((cfg0.win 3).blk t).view.emb y) = V m c main_v0 (((cfg0.win 3).blk t0).view.emb y)
  apply congrArg
  funext a; apply Fin.ext
  match a with
  | ⟨0, _⟩ => show win0_3.index t 0 * 1 + 1 * (y 0).val = win0_3.index t0 0 * 1 + 1 * (y 0).val; omega
  | ⟨1, _⟩ => show win0_3.index t 1 * 128 + 1 * (y 1).val = win0_3.index t0 1 * 128 + 1 * (y 1).val; omega

theorem blk4_const (c : Dev nD) (t : Fin cfg0.N) : (iblk m c 4 t : Vec F S128x64 .f32) = iblk m c 4 t0 := by
  obtain ⟨e0, e1⟩ := idx4 t
  obtain ⟨f0, f1⟩ := idx4 t0
  funext y
  show V m c main_arg4 (((cfg0.win 4).blk t).view.emb y) = V m c main_arg4 (((cfg0.win 4).blk t0).view.emb y)
  apply congrArg
  funext a; apply Fin.ext
  match a with
  | ⟨0, _⟩ => show win0_4.index t 0 * 128 + 1 * (y 0).val = win0_4.index t0 0 * 128 + 1 * (y 0).val; omega
  | ⟨1, _⟩ => show win0_4.index t 1 * 64 + 1 * (y 1).val = win0_4.index t0 1 * 64 + 1 * (y 1).val; omega

theorem blk5_const (c : Dev nD) (t : Fin cfg0.N) : (iblk m c 5 t : Vec F S1x64 .f32) = iblk m c 5 t0 := by
  obtain ⟨e0, e1⟩ := idx5 t
  obtain ⟨f0, f1⟩ := idx5 t0
  funext y
  show V m c main_v1 (((cfg0.win 5).blk t).view.emb y) = V m c main_v1 (((cfg0.win 5).blk t0).view.emb y)
  apply congrArg
  funext a; apply Fin.ext
  match a with
  | ⟨0, _⟩ => show win0_5.index t 0 * 1 + 1 * (y 0).val = win0_5.index t0 0 * 1 + 1 * (y 0).val; omega
  | ⟨1, _⟩ => show win0_5.index t 1 * 64 + 1 * (y 1).val = win0_5.index t0 1 * 64 + 1 * (y 1).val; omega

/-! ## The adjacency window -/

/-- Two points with the same remainder mod 25 fetch the same row block of the adjacency. -/
theorem blk1_congr (c : Dev nD) (t u : Fin cfg0.N) (h : t.val % 25 = u.val % 25) :
    (iblk m c 1 t : Vec F S400x10000 .f32) = iblk m c 1 u := by
  obtain ⟨e0, e1⟩ := idx1 t
  obtain ⟨f0, f1⟩ := idx1 u
  funext y
  show V m c main_arg1 (((cfg0.win 1).blk t).view.emb y) = V m c main_arg1 (((cfg0.win 1).blk u).view.emb y)
  apply congrArg
  funext a; apply Fin.ext
  match a with
  | ⟨0, _⟩ => show win0_1.index t 0 * 400 + 1 * (y 0).val = win0_1.index u 0 * 400 + 1 * (y 0).val; omega
  | ⟨1, _⟩ => show win0_1.index t 1 * 10000 + 1 * (y 1).val = win0_1.index u 1 * 10000 + 1 * (y 1).val; omega

theorem blk1_mod (c : Dev nD) (t : Fin cfg0.N) :
    (iblk m c 1 t : Vec F S400x10000 .f32) = iblk m c 1 (pt (t.val % 25) (by omega)) :=
  blk1_congr m c t _ (by show t.val % 25 = (t.val % 25) % 25; omega)

/-! ## One block is the whole array -/

theorem blk0_eq (c : Dev nD) : (iblk m c 0 t0 : Vec F S10000x128 .f32) = V m c main_arg0 := by
  obtain ⟨f0, f1⟩ := idx0 t0
  funext y
  show V m c main_arg0 (((cfg0.win 0).blk t0).view.emb y) = V m c main_arg0 y
  apply congrArg
  funext a; apply Fin.ext
  match a with
  | ⟨0, _⟩ => show win0_0.index t0 0 * 10000 + 1 * (y 0).val = (y 0).val; omega
  | ⟨1, _⟩ => show win0_0.index t0 1 * 128 + 1 * (y 1).val = (y 1).val; omega

theorem blk2_eq (c : Dev nD) : (iblk m c 2 t0 : Vec F S128x128 .f32) = V m c main_arg2 := by
  obtain ⟨f0, f1⟩ := idx2 t0
  funext y
  show V m c main_arg2 (((cfg0.win 2).blk t0).view.emb y) = V m c main_arg2 y
  apply congrArg
  funext a; apply Fin.ext
  match a with
  | ⟨0, _⟩ => show win0_2.index t0 0 * 128 + 1 * (y 0).val = (y 0).val; omega
  | ⟨1, _⟩ => show win0_2.index t0 1 * 128 + 1 * (y 1).val = (y 1).val; omega

theorem blk3_eq (c : Dev nD) : (iblk m c 3 t0 : Vec F S1x128 .f32) = V m c main_v0 := by
  obtain ⟨f0, f1⟩ := idx3 t0
  funext y
  show V m c main_v0 (((cfg0.win 3).blk t0).view.emb y) = V m c main_v0 y
  apply congrArg
  funext a; apply Fin.ext
  match a with
  | ⟨0, _⟩ => show win0_3.index t0 0 * 1 + 1 * (y 0).val = (y 0).val; omega
  | ⟨1, _⟩ => show win0_3.index t0 1 * 128 + 1 * (y 1).val = (y 1).val; omega

theorem blk4_eq (c : Dev nD) : (iblk m c 4 t0 : Vec F S128x64 .f32) = V m c main_arg4 := by
  obtain ⟨f0, f1⟩ := idx4 t0
  funext y
  show V m c main_arg4 (((cfg0.win 4).blk t0).view.emb y) = V m c main_arg4 y
  apply congrArg
  funext a; apply Fin.ext
  match a with
  | ⟨0, _⟩ => show win0_4.index t0 0 * 128 + 1 * (y 0).val = (y 0).val; omega
  | ⟨1, _⟩ => show win0_4.index t0 1 * 64 + 1 * (y 1).val = (y 1).val; omega

theorem blk5_eq (c : Dev nD) : (iblk m c 5 t0 : Vec F S1x64 .f32) = V m c main_v1 := by
  obtain ⟨f0, f1⟩ := idx5 t0
  funext y
  show V m c main_v1 (((cfg0.win 5).blk t0).view.emb y) = V m c main_v1 y
  apply congrArg
  funext a; apply Fin.ext
  match a with
  | ⟨0, _⟩ => show win0_5.index t0 0 * 1 + 1 * (y 0).val = (y 0).val; omega
  | ⟨1, _⟩ => show win0_5.index t0 1 * 64 + 1 * (y 1).val = (y 1).val; omega

/-- An element of the adjacency's block at a point with remainder q: row 400 q + r of the array. -/
theorem blk1_apply_at (c : Dev nD) (u : Fin cfg0.N) (q : ℕ) (hq : u.val % 25 = q) (r : Fin 400) (j : Fin 10000)
    (hb : 400 * q + r.val < 10000) :
    (iblk m c 1 u : Vec F S400x10000 .f32) (ix2 r j)
      = (V m c main_arg1 : Vec F S10000x10000 .f32) (ix2 ⟨400 * q + r.val, hb⟩ j) := by
  obtain ⟨f0, f1⟩ := idx1 u
  show V m c main_arg1 (((cfg0.win 1).blk u).view.emb (ix2 r j)) = V m c main_arg1 (ix2 ⟨400 * q + r.val, hb⟩ j)
  apply congrArg
  funext a; apply Fin.ext
  match a with
  | ⟨0, _⟩ => show win0_1.index u 0 * 400 + 1 * r.val = 400 * q + r.val; omega
  | ⟨1, _⟩ => show win0_1.index u 1 * 10000 + 1 * j.val = j.val; omega

theorem blk1_apply (c : Dev nD) (i : Fin 25) (r : Fin 400) (j : Fin 10000) :
    (iblk m c 1 (pt i.val (by omega)) : Vec F S400x10000 .f32) (ix2 r j)
      = (V m c main_arg1 : Vec F S10000x10000 .f32) (ix2 ⟨400 * i.val + r.val, by omega⟩ j) :=
  blk1_apply_at m c _ i.val (by show i.val % 25 = i.val; have := i.isLt; omega) r j _

/-! ## The two bias rows: the host's reshapes -/

theorem v0_apply (c : Dev nD) (k : Fin 128) :
    (V m c main_v0 : Vec F S1x128 .f32) (ix2 0 k) = (m ((c : Thread nD τ).loc main_arg3) : Vec F S128 .f32) (ix1 k) := by
  have e : (V m c main_v0 : Vec F S1x128 .f32)
      = shapeCast S1x128 (m ((c : Thread nD τ).loc main_arg3) : Vec F S128 .f32) shapeCasts_S128_S1x128 := by
    dsimp only [Gen.V, Gen.hostOps0]; after_results; rfl
  rw [e]
  exact shapeCast_apply (s := S128) (t := S1x128) _ _ (ix2 0 k) (ix1 k) (by
    show (S128.rowMajor (ix1 k)).val = (S1x128.rowMajor (ix2 0 k)).val
    rw [Shape.rowMajor_val_two, Shape.rowMajor_val_one]
    show k.val = 0 * 128 + k.val
    omega)

theorem v1_apply (c : Dev nD) (k : Fin 64) :
    (V m c main_v1 : Vec F S1x64 .f32) (ix2 0 k) = (m ((c : Thread nD τ).loc main_arg5) : Vec F S64 .f32) (ix1 k) := by
  have e : (V m c main_v1 : Vec F S1x64 .f32)
      = shapeCast S1x64 (m ((c : Thread nD τ).loc main_arg5) : Vec F S64 .f32) shapeCasts_S64_S1x64 := by
    dsimp only [Gen.V, Gen.hostOps0]; after_results; rfl
  rw [e]
  exact shapeCast_apply (s := S64) (t := S1x64) _ _ (ix2 0 k) (ix1 k) (by
    show (S64.rowMajor (ix1 k)).val = (S1x64.rowMajor (ix2 0 k)).val
    rw [Shape.rowMajor_val_two, Shape.rowMajor_val_one]
    show k.val = 0 * 64 + k.val
    omega)

/-! ## The output window's schedule -/

theorem flush6_iff : ∀ t : Fin cfg0.N, (cfg0.win 6).flush t = true ↔ 25 ≤ t.val :=
  (by decide +kernel : ∀ t : Fin grid0.N, win0_6.flush t = true ↔ 25 ≤ t.val)

theorem index6 : ∀ t : Fin cfg0.N, 25 ≤ t.val → (cfg0.win 6).index t 0 = t.val - 25 ∧ (cfg0.win 6).index t 1 = 0 :=
  (by decide +kernel : ∀ t : Fin grid0.N, 25 ≤ t.val → win0_6.index t 0 = t.val - 25 ∧ win0_6.index t 1 = 0)

end Cert.KernelIdeal.Body

end
-- ==== Proof.KernelIdeal.Agree.lean ====
/-
  One phase-0 point's store keeps the second scratch's invariant: if the buffer held s2 on the rows below 400 t
  and point t < 25 writes relu (adjRows t · s1 + b1) · W2 through the rectangle of rows 400 t … 400 t + 399, it
  holds s2 on the rows below 400 (t + 1) — the rectangle's rows read the stored block, which is s2's row block t
  by definition, and the rows below it are untouched.
-/
import proofs.«128685_g29824252903679_cont_9to1_81_4_alg».proof.Proof.KernelIdeal.Data
import proofs.«128685_g29824252903679_cont_9to1_81_4_alg».proof.Proof.KernelIdeal.Blocks
import proofs.«128685_g29824252903679_cont_9to1_81_4_alg».proof.Proof.KernelIdeal.Runs

set_option maxRecDepth 16384

noncomputable section

namespace Cert.KernelIdeal.Body

open Idealize.ShloMosaic Idealize.ShloMosaic.TcCoe Idealize.ShloMosaic.ValueIdx
open Idealize.SL Idealize.SL.Sem
open Cert.KernelIdeal Cert.KernelIdeal.Gen

variable {F : FTy → Type} [FloatOps F]
variable (m : (ℓ : Loc nD τ sig) → Buf (Elt F) ℓ)

/-- Where a phase-0 point's rows start. -/
theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])

/-- A row block of s2 read at equal coordinates: the block number and the two coordinates compared as naturals. -/
theorem s2rows_congr (c : Dev nD) (i i' : Fin 25) (x x' : S400x64.Idx) (hi : i.val = i'.val)
    (h0 : (x 0).val = (x' 0).val) (h1 : (x 1).val = (x' 1).val) : s2rows m c i x = s2rows m c i' x' := by
  obtain rfl : i = i' := Fin.ext hi
  refine congrArg _ (funext fun a => Fin.ext ?_)
  match a with
  | ⟨0, _⟩ => exact h0
  | ⟨1, _⟩ => exact h1

/-- The invariant's step at a point of phase 0. -/
theorem agree_step (c : Dev nD) (t : Fin cfg0.N) (ht : t.val < 25) (hc1 : cond1 (grid0.coords t))
    (f : (scM1 : Memref sig .tc .vmem S10000x64 .f32).view.ty.Contents (Elt F)) (d : Vec F S10000x64 .f32)
    (hf : (scM1 : Memref sig .tc .vmem S10000x64 .f32).view.read (Elt F) f = d) (hd : AgreeBelow m c t.val d) :
    AgreeBelow m c (t.val + 1)
      ((scM1 : Memref sig .tc .vmem S10000x64 .f32).view.read (Elt F)
        ((scM1 : Memref sig .tc .vmem S10000x64 .f32).view.writes (Elt F) f
          [⟨rowsRect (grid0.coords t) hc1, k0_pay2 (iblk m c 1 t) (s1 m c) (iblk m c 3 t) (iblk m c 4 t)⟩])) := by
  intro j hj
  have hoff := off1_eq t ht
  have hoff0 : k0_off1 (grid0.coords t) 0 = 400 * t.val := by rw [hoff]; rfl
  have hoff1 : k0_off1 (grid0.coords t) 1 = 0 := by rw [hoff]; rfl
  by_cases hmem : j ∈ (rowsRect (grid0.coords t) hc1).set
  · obtain ⟨x, rfl⟩ : ∃ x, (rowsRect (grid0.coords t) hc1).emb x = j := (rowsRect (grid0.coords t) hc1).exists_idx_of_mem hmem
    rw [View.read_writes_cons_emb]
    have hx0 : (x 0).val < 400 := (x 0).isLt
    have e0 : (((rowsRect (grid0.coords t) hc1).emb x) 0).val = 400 * t.val + (x 0).val := by
      rw [Rect.emb_apply]
      show k0_off1 (grid0.coords t) 0 + 1 * (x 0).val = _
      rw [hoff0, Nat.one_mul]
    have e1 : (((rowsRect (grid0.coords t) hc1).emb x) 1).val = (x 1).val := by
      rw [Rect.emb_apply]
      show k0_off1 (grid0.coords t) 1 + 1 * (x 1).val = _
      rw [hoff1, Nat.one_mul, Nat.zero_add]
    rw [blk3_const m c t, blk4_const m c t]
    have hp : k0_pay2 (iblk m c 1 t) (s1 m c) (iblk m c 3 t0) (iblk m c 4 t0) = s2rows m c ⟨t.val, ht⟩ := rfl
    rw [hp]
    unfold s2
    refine s2rows_congr m c _ _ _ _ ?_ ?_ ?_
    · show t.val = (((rowsRect (grid0.coords t) hc1).emb x) 0).val / 400
      rw [e0]; omega
    · show (x 0).val = (((rowsRect (grid0.coords t) hc1).emb x) 0).val % 400
      rw [e0]; omega
    · show (x 1).val = (((rowsRect (grid0.coords t) hc1).emb x) 1).val
      rw [e1]
  · rw [View.read_writes_apply_of_forall_not_mem _ _ j _ (fun p hp => by
      rw [List.mem_singleton] at hp; subst hp; exact hmem), hf]
    refine hd j ?_
    rw [Rect.mem_set_unit] at hmem
    by_contra hge
    refine hmem fun a => ?_
    have hj1 : (j 1).val < 64 := (j 1).isLt
    match a with
    | ⟨0, _⟩ =>
      show k0_off1 (grid0.coords t) 0 ≤ (j 0).val ∧ (j 0).val < k0_off1 (grid0.coords t) 0 + 400
      rw [hoff0]; omega
    | ⟨1, _⟩ =>
      show k0_off1 (grid0.coords t) 1 ≤ (j 1).val ∧ (j 1).val < k0_off1 (grid0.coords t) 1 + 64
      rw [hoff1]; omega

end Cert.KernelIdeal.Body

end
-- ==== Proof.KernelIdeal.Body.lean ====
/-
  The body obligation of the one pipeline and the run it gives: at every point the kernel body, run on the
  windows' current staging buffers and the two scratch buffers, takes the invariant before the point to the
  invariant after it and leaves every window's buffer at what the proof data says — the inputs at their
  blocks, the output window's untouched in phase 0 (where it is neither stored nor written back) and at the
  point's log-softmax block in phase 1.
-/
import proofs.«128685_g29824252903679_cont_9to1_81_4_alg».proof.Proof.KernelIdeal.Data
import proofs.«128685_g29824252903679_cont_9to1_81_4_alg».proof.Proof.KernelIdeal.Runs
import proofs.«128685_g29824252903679_cont_9to1_81_4_alg».proof.Proof.KernelIdeal.Agree

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs at a point, and the class's invariant opened -/

abbrev ms0 (t : Fin cfg0.N) : Memref sig .tc .vmem S10000x128 .f32 := win0_0.stage (cfg0.slots t 0)
abbrev ms1 (t : Fin cfg0.N) : Memref sig .tc .vmem S400x10000 .f32 := win0_1.stage (cfg0.slots t 1)
abbrev ms2 (t : Fin cfg0.N) : Memref sig .tc .vmem S128x128 .f32 := win0_2.stage (cfg0.slots t 2)
abbrev ms3 (t : Fin cfg0.N) : Memref sig .tc .vmem S1x128 .f32 := win0_3.stage (cfg0.slots t 3)
abbrev ms4 (t : Fin cfg0.N) : Memref sig .tc .vmem S128x64 .f32 := win0_4.stage (cfg0.slots t 4)
abbrev ms5 (t : Fin cfg0.N) : Memref sig .tc .vmem S1x64 .f32 := win0_5.stage (cfg0.slots t 5)
abbrev ms6 (t : Fin cfg0.N) : Memref sig .tc .vmem S400x64 .f32 := win0_6.stage (cfg0.slots t 6)

/-- The region's own invariant: both scratch buffers at anything, the generator register at some state. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## Where the windows are idle, and where the output is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The output window is stored only in phase 1: idle, and not written back, at the points of phase 0. -/
theorem idle6_of_lt : ∀ t : Fin cfg0.N, t.val < 25 → cfg0.idle 6 (grid0.coords t) = true := by decide +kernel
theorem live6_of_ge : ∀ t : Fin cfg0.N, 25 ≤ t.val → cfg0.idle 6 (grid0.coords t) = false := by decide +kernel
theorem noflush6_of_lt : ∀ t : Fin cfg0.N, t.val < 25 → (cfg0.win 6).flush t = false := by decide +kernel

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## The body obligation at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 9600000 in
/-- The body at any point, by the three cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  have hN : t.val < 50 := lt_of_lt_of_eq t.isLt N50
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  by_cases h1 : t.val < 25
  · have hc1 : cond1 (grid0.coords t) := (hcond1 t).mpr h1
    have hc2 : ¬cond2 (grid0.coords t) := fun h => absurd ((hcond2 t).mp h) (by omega)
    rw [Dat.leavesExact_idle (dats m 0 c) 6 t (idle6_of_lt t h1) (noflush6_of_lt t h1)]
    by_cases hz : t.val = 0
    · -- the first point: s1 stored whole, then the first 400 rows of s2
      have hc0 : cond0 (grid0.coords t) := (hcond0 t).mpr hz
      have ht0 : t = t0 := Fin.ext hz
      rw [PhiS_castSucc m c t, PhiS_zero m c _ _ hz, PhiA_eq]
      iintro ⟨⟨⟨⟨%ds0, HS0⟩, ⟨%ds1, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply (runA c (grid0.coords t) _ _ _ _ _ _ _ _ _ _ _ _ _ _ _ _ _ _ hc0 hc1 hc2 (iblk m c 0 t) (iblk m c 1 t) (iblk m c 2 t) (iblk m c 3 t) (iblk m c 4 t) (iblk m c 5 t) _ ds1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexact HS1
      iintro ⟨H0, H1, H2, H3, H4, H5, H6, HS0, ⟨%f, %hf, HS1⟩⟩
      isplitl [HS0 HS1 Hg]
      · isplitl [HS0 HS1]
        · isplitl [HS0]
          · rw [show s1 m c = k0_pay1 (iblk m c 0 t) (iblk m c 2 t) from by rw [ht0]; rfl]
            iexact HS0
          iexists _; isplitr
          · ipureintro
            have h := agree_step m c t h1 hc1 f ds1 hf (fun j hj => absurd hj (by omega))
            rw [show s1 m c = k0_pay1 (iblk m c 0 t) (iblk m c 2 t) from by rw [ht0]; rfl] at h
            exact h
          unfold owns; iexists _; isplitr; · ipureintro; rfl
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · -- a later point of phase 0: 400 more rows of s2
      have hc0 : ¬cond0 (grid0.coords t) := fun h => hz ((hcond0 t).mp h)
      rw [PhiS_castSucc m c t, PhiS_pos m c _ _ hz]
      iintro ⟨⟨⟨HS0, ⟨%ds1, %hd, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply (runB c (grid0.coords t) _ _ _ _ _ _ _ _ _ _ _ _ _ _ _ _ _ _ hc0 hc1 hc2 (iblk m c 0 t) (iblk m c 1 t) (iblk m c 2 t) (iblk m c 3 t) (iblk m c 4 t) (iblk m c 5 t) _ (s1 m c) ds1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, ⟨%f, %hf, HS1⟩⟩
      isplitl [HS0 HS1 Hg]
      · isplitl [HS0 HS1]
        · isplitl [HS0]; · iexact HS0
          iexists _; isplitr
          · ipureintro; exact agree_step m c t h1 hc1 f ds1 hf hd
          unfold owns; iexists _; isplitr; · ipureintro; rfl
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · -- a point of phase 1: the second scratch holds s2 whole; the log-softmax block goes to the output window
    have h2 : 25 ≤ t.val := by omega
    have hz : t.val ≠ 0 := by omega
    have hc0 : ¬cond0 (grid0.coords t) := fun h => hz ((hcond0 t).mp h)
    have hc1 : ¬cond1 (grid0.coords t) := fun h => h1 ((hcond1 t).mp h)
    have hc2 : cond2 (grid0.coords t) := (hcond2 t).mpr h2
    rw [show (dats m 0 c).leavesExact 6 t = owns (c : Thread nD τ) (ms6 t) fullShare ((dats m 0 c).after 6 t) from by
      unfold Dat.leavesExact; rw [live6_of_ge t h2], after6]
    rw [PhiS_castSucc m c t, PhiS_pos m c _ _ hz]
    iintro ⟨⟨⟨HS0, ⟨%ds1, %hd, HS1⟩⟩, Hg⟩, Ho, ⟨%d0, H0⟩, ⟨%d1, H1⟩, ⟨%d2, H2⟩, ⟨%d3, H3⟩, ⟨%d4, H4⟩, ⟨%d5, H5⟩, ⟨%d6, H6⟩⟩
    obtain rfl := hd.eq_s2 m h2
    iapply (runC c (grid0.coords t) _ _ _ _ _ _ _ _ _ _ _ _ _ _ _ _ _ _ hc0 hc1 hc2 (iblk m c 0 t) (iblk m c 1 t) (iblk m c 2 t) (iblk m c 3 t) (iblk m c 4 t) (iblk m c 5 t) (s1 m c) (s2 m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]; · iexact HS0
        iexists _; isplitr
        · ipureintro; exact fun j _ => rfl
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the region's own back: what the scratch buffers hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 50 := N50; omega), PhiA_eq]
  iintro ⟨⟨HS0, ⟨%d, %hd, HS1⟩⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates; each array of the pipeline ends at what the proof data computes
    (an input unchanged, the output at its blocks written back in point order), every other buffer as at the region's entry. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.KernelIdeal.Final.lean ====
/-
  The output array after the run: the 25 blocks written back at the points of phase 1 tile it, and block i is
  the log-softmax block of row block i, so the array ends as the whole-array function `out`.
-/
import proofs.«128685_g29824252903679_cont_9to1_81_4_alg».proof.Proof.KernelIdeal.Data
import proofs.«128685_g29824252903679_cont_9to1_81_4_alg».proof.Proof.KernelIdeal.Blocks

set_option maxRecDepth 16384

noncomputable section

namespace Cert.KernelIdeal.Body

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ)

/-- `out` at row 400 q + r is row r of block q. -/
theorem out_ix2 (c : Dev nD) (q : ℕ) (hq : q < 25) (r : Fin 400) (k : Fin 64) (hb : 400 * q + r.val < 10000) :
    out m c (ix2 ⟨400 * q + r.val, hb⟩ k) = outRows m c ⟨q, hq⟩ (ix2 r k) := by
  have hr := r.isLt
  have h0 : (400 * q + r.val) / 400 < 25 := by omega
  have h1 : (400 * q + r.val) % 400 < 400 := by omega
  have a0 : (⟨(400 * q + r.val) / 400, h0⟩ : Fin 25) = ⟨q, hq⟩ := Fin.ext (by show (400 * q + r.val) / 400 = q; omega)
  have a1 : (⟨(400 * q + r.val) % 400, h1⟩ : Fin 400) = r := Fin.ext (by show (400 * q + r.val) % 400 = r.val; omega)
  show outRows m c ⟨(400 * q + r.val) / 400, h0⟩ (ix2 ⟨(400 * q + r.val) % 400, h1⟩ k) = _
  rw [a0, a1]

/-- An element of the output window's block at a point of phase 1 sits at row 400 (t − 25) + its row. -/
theorem emb6 (t : Fin cfg0.N) (ht : 25 ≤ t.val) (r : Fin 400) (k : Fin 64) (hb : 400 * (t.val - 25) + r.val < 10000) :
    (((cfg0.win 6).blk t).view.emb (ix2 r k) : S10000x64.Idx) = ix2 ⟨400 * (t.val - 25) + r.val, hb⟩ k := by
  obtain ⟨e0, e1⟩ : win0_6.index t 0 = t.val - 25 ∧ win0_6.index t 1 = 0 := index6 t ht
  funext a; apply Fin.ext
  match a with
  | ⟨0, _⟩ => show win0_6.index t 0 * 400 + 1 * r.val = 400 * (t.val - 25) + r.val; omega
  | ⟨1, _⟩ => show win0_6.index t 1 * 64 + 1 * k.val = k.val; omega

/-- What a point of phase 1 writes back is its block of `out`. -/
theorem flushed6_eq (c : Dev nD) (t : Fin cfg0.N) (ht : 25 ≤ t.val) :
    (dats m 0 c).flushed 6 t = ((cfg0.win 6).blk t).view.read (Elt F) (out m c) := by
  have hN : t.val < 50 := lt_of_lt_of_eq t.isLt N50
  show (cfg0.win 6).cut (cfg0.grid.coords t) ((dats m 0 c).after 6 t) = _
  rw [after6]
  show (fun y : S400x64.Idx => k0_pay3 (iblk m c 1 t) (s2 m c) (iblk m c 5 t) y)
    = fun y : S400x64.Idx => out m c (((cfg0.win 6).blk t).view.emb y)
  funext y
  obtain ⟨r, k, rfl⟩ : ∃ (r : Fin 400) (k : Fin 64), y = ix2 r k := ⟨y 0, y 1, eq_ix2 y⟩
  have hr := r.isLt
  have hb : 400 * (t.val - 25) + r.val < 10000 := by omega
  have hi : t.val - 25 < 25 := by omega
  rw [emb6 t ht r k hb, out_ix2 m c (t.val - 25) hi r k hb]
  unfold outRows
  rw [blk1_mod m c t, blk5_const m c t]
  have hp : pt (t.val % 25) (by omega) = pt (t.val - 25) (by omega) :=
    Fin.ext (by show t.val % 25 = t.val - 25; omega)
  rw [hp]

/-- An index of the array is in point t's block iff each coordinate is in the block's range on its axis. -/
theorem mem_blk6 (t : Fin cfg0.N) (i : S10000x64.Idx) :
    i ∈ ((cfg0.win 6).blk t).view.set ↔ ∀ a : Fin 2, win0_6.index t a * S400x64.size a ≤ (i a).val ∧ (i a).val < win0_6.index t a * S400x64.size a + S400x64.size a := by
  show i ∈ ((View.whole main_v2).slice (win0_6.rect t)).set ↔ _
  rw [View.set_slice_whole, Rect.mem_set_unit]
  exact Iff.rfl

/-- Row j lies in the block of point 25 + j / 400. -/
theorem cover6 (i : S10000x64.Idx) :
    ∃ t : Fin cfg0.N, (cfg0.win 6).flush t = true ∧ i ∈ ((cfg0.win 6).blk t).view.set := by
  have hi0 : (i 0).val < 10000 := (i 0).isLt
  have hi1 : (i 1).val < 64 := (i 1).isLt
  have hq : 25 + (i 0).val / 400 < 50 := by omega
  have ht : 25 ≤ (pt (25 + (i 0).val / 400) hq).val := by show 25 ≤ 25 + (i 0).val / 400; omega
  refine ⟨pt (25 + (i 0).val / 400) hq, (flush6_iff _).mpr ht, ?_⟩
  obtain ⟨e0, e1⟩ : win0_6.index (pt (25 + (i 0).val / 400) hq) 0 = (25 + (i 0).val / 400) - 25
      ∧ win0_6.index (pt (25 + (i 0).val / 400) hq) 1 = 0 := index6 _ ht
  rw [mem_blk6]
  intro a
  match a with
  | ⟨0, _⟩ =>
    show win0_6.index (pt (25 + (i 0).val / 400) hq) 0 * 400 ≤ (i 0).val
      ∧ (i 0).val < win0_6.index (pt (25 + (i 0).val / 400) hq) 0 * 400 + 400
    omega
  | ⟨1, _⟩ =>
    show win0_6.index (pt (25 + (i 0).val / 400) hq) 1 * 64 ≤ (i 1).val
      ∧ (i 1).val < win0_6.index (pt (25 + (i 0).val / 400) hq) 1 * 64 + 64
    omega

/-- The output array after every write-back is `out`. -/
theorem final6 (c : Dev nD) : (dats m 0 c).arrAt 6 cfg0.N = out m c :=
  (dats m 0 c).arrAt_eq_of_cover 6 (out m c) (fun t hf => flushed6_eq m c t ((flush6_iff t).mp hf)) cover6

end Cert.KernelIdeal.Body

end
-- ==== Proof.KernelIdeal.Result.lean ====
/-
  The kernel's run with its result named: every weakly fair execution of @main terminates with the result array
  at the whole-array function `out` of the arrays the region found, the six arguments unchanged.
-/
import proofs.«128685_g29824252903679_cont_9to1_81_4_alg».proof.Proof.KernelIdeal.Body
import proofs.«128685_g29824252903679_cont_9to1_81_4_alg».proof.Proof.KernelIdeal.Final

set_option maxRecDepth 16384

noncomputable section

namespace Cert.KernelIdeal.Body

open Idealize.ShloMosaic Idealize.ShloMosaic.TcCoe
open Idealize.SL Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

theorem run_value : θ_run defs (onTc (τ := τ) (main (F := F))) ⟨m, fun _ => 0, ρ⟩ (fun r => ∀ c : Dev nD,
      r.2.mem ((c.tc : Thread nD τ).loc main_v2) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (final6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩) (run_main m ρ)

end Cert.KernelIdeal.Body

end
-- ==== Proof.KernelIdeal.Pay12.lean ====
/-
  The two matrix-product payloads read at an index on the extended reals: the first point's x · W1, and a
  phase-0 point's relu (adjRows · s1 + b1) · W2, each product a plain sum over the contracted axis.
-/
import proofs.«128685_g29824252903679_cont_9to1_81_4_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

namespace Cert.KernelIdeal.PayAt

open Idealize.ShloMosaic Idealize.ShloMosaic.TcCoe Idealize.ShloMosaic.ValueIdx
open Cert.KernelIdeal Cert.KernelIdeal.Gen

/-! ## The operand indices of the three products, one axis at a time

Each product contracts the left operand's axis 1 with the right operand's axis 0 and has no batch axis: at the output
index (r, c) and the contraction index q the left operand is read at (r, q) and the right one at (q, c). -/

-- x · W1 : [10000, 128] × [128, 128]
theorem lhsA_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhsA_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhsA_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhsA_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

-- adjRows · s1 : [400, 10000] × [10000, 128]
theorem lhsB_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhsB_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhsB_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhsB_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

-- h · W2 : [400, 128] × [128, 64]
theorem lhsC_0 (i : S400x64.Idx) (q : dot_S400x128_S128x64_S400x64_1_0_0_1_n_n.contr.Idx) :
    (dot_S400x128_S128x64_S400x64_1_0_0_1_n_n.lhsIdx i q 0).val = (i 0).val := by
  unfold DotDims.lhsIdx
  rw [dif_neg (show ¬(0 : Fin S400x128.rank) ∈ dot_S400x128_S128x64_S400x64_1_0_0_1_n_n.lhsBatch by decide), dif_pos (show (0 : Fin S400x128.rank) ∈ dot_S400x128_S128x64_S400x64_1_0_0_1_n_n.lhsNonContracting by decide)]
  rfl
theorem lhsC_1 (i : S400x64.Idx) (q : dot_S400x128_S128x64_S400x64_1_0_0_1_n_n.contr.Idx) :
    (dot_S400x128_S128x64_S400x64_1_0_0_1_n_n.lhsIdx i q 1).val = (q ⟨0, by decide⟩).val :=
  dot_S400x128_S128x64_S400x64_1_0_0_1_n_n.lhsIdx_val_of_single rfl i q
theorem rhsC_0 (i : S400x64.Idx) (q : dot_S400x128_S128x64_S400x64_1_0_0_1_n_n.contr.Idx) :
    (dot_S400x128_S128x64_S400x64_1_0_0_1_n_n.rhsIdx i q 0).val = (q ⟨0, by decide⟩).val :=
  dot_S400x128_S128x64_S400x64_1_0_0_1_n_n.rhsIdx_val_of_single rfl i q
theorem rhsC_1 (i : S400x64.Idx) (q : dot_S400x128_S128x64_S400x64_1_0_0_1_n_n.contr.Idx) :
    (dot_S400x128_S128x64_S400x64_1_0_0_1_n_n.rhsIdx i q 1).val = (i 1).val := by
  unfold DotDims.rhsIdx
  rw [dif_neg (show ¬(1 : Fin S128x64.rank) ∈ dot_S400x128_S128x64_S400x64_1_0_0_1_n_n.rhsBatch by decide), dif_pos (show (1 : Fin S128x64.rank) ∈ dot_S400x128_S128x64_S400x64_1_0_0_1_n_n.rhsNonContracting by decide)]
  rfl

/-! ## A product into the zero accumulator at an index: the sum over the one contracted coordinate -/

/-- ([10000, 128] · [128, 128]) at (j, k) is the sum over the 128 contracted coordinates. -/
theorem mmA_apply (x : FVec Ideal S10000x128 .f32) (w : FVec Ideal S128x128 .f32) (j : Fin 10000) (k : Fin 128) :
    matmul (F := Ideal) dot_S10000x128_S128x128_S10000x128_1_0_0_1_n_n none x w (constant (F := Ideal) S10000x128 .f32 0x00000000#32) (ix2 j k)
      = ∑ l : Fin 128, x (ix2 j l) * w (ix2 l k) := by
  refine (Ideal.matmul_constant_zero_apply dot_S10000x128_S128x128_S10000x128_1_0_0_1_n_n none x w (ix2 j k)).trans ?_
  rw [← Equiv.sum_comp (contrEquiv1 dot_S10000x128_S128x128_S10000x128_1_0_0_1_n_n 128 rfl rfl).symm]
  refine Finset.sum_congr rfl fun l _ => ?_
  have hk := contrEquiv1_symm_val dot_S10000x128_S128x128_S10000x128_1_0_0_1_n_n 128 rfl rfl l
  have el : dot_S10000x128_S128x128_S10000x128_1_0_0_1_n_n.lhsIdx (ix2 j k) ((contrEquiv1 dot_S10000x128_S128x128_S10000x128_1_0_0_1_n_n 128 rfl rfl).symm l) = ix2 j l := funext fun a => Fin.ext (by
    match a with
    | ⟨0, _⟩ => exact lhsA_0 _ _
    | ⟨1, _⟩ => exact (lhsA_1 _ _).trans hk)
  have er : dot_S10000x128_S128x128_S10000x128_1_0_0_1_n_n.rhsIdx (ix2 j k) ((contrEquiv1 dot_S10000x128_S128x128_S10000x128_1_0_0_1_n_n 128 rfl rfl).symm l) = ix2 l k := funext fun a => Fin.ext (by
    match a with
    | ⟨0, _⟩ => exact (rhsA_0 _ _).trans hk
    | ⟨1, _⟩ => exact rhsA_1 _ _)
  rw [el, er]

/-- ([400, 10000] · [10000, 128]) at (j, k) is the sum over the 10000 contracted coordinates. -/
theorem mmB_apply (x : FVec Ideal S400x10000 .f32) (w : FVec Ideal S10000x128 .f32) (j : Fin 400) (k : Fin 128) :
    matmul (F := Ideal) dot_S400x10000_S10000x128_S400x128_1_0_0_1_n_n none x w (constant (F := Ideal) S400x128 .f32 0x00000000#32) (ix2 j k)
      = ∑ l : Fin 10000, x (ix2 j l) * w (ix2 l k) := by
  refine (Ideal.matmul_constant_zero_apply dot_S400x10000_S10000x128_S400x128_1_0_0_1_n_n none x w (ix2 j k)).trans ?_
  rw [← Equiv.sum_comp (contrEquiv1 dot_S400x10000_S10000x128_S400x128_1_0_0_1_n_n 10000 rfl rfl).symm]
  refine Finset.sum_congr rfl fun l _ => ?_
  have hk := contrEquiv1_symm_val dot_S400x10000_S10000x128_S400x128_1_0_0_1_n_n 10000 rfl rfl l
  have el : dot_S400x10000_S10000x128_S400x128_1_0_0_1_n_n.lhsIdx (ix2 j k) ((contrEquiv1 dot_S400x10000_S10000x128_S400x128_1_0_0_1_n_n 10000 rfl rfl).symm l) = ix2 j l := funext fun a => Fin.ext (by
    match a with
    | ⟨0, _⟩ => exact lhsB_0 _ _
    | ⟨1, _⟩ => exact (lhsB_1 _ _).trans hk)
  have er : dot_S400x10000_S10000x128_S400x128_1_0_0_1_n_n.rhsIdx (ix2 j k) ((contrEquiv1 dot_S400x10000_S10000x128_S400x128_1_0_0_1_n_n 10000 rfl rfl).symm l) = ix2 l k := funext fun a => Fin.ext (by
    match a with
    | ⟨0, _⟩ => exact (rhsB_0 _ _).trans hk
    | ⟨1, _⟩ => exact rhsB_1 _ _)
  rw [el, er]

/-- ([400, 128] · [128, 64]) at (j, k) is the sum over the 128 contracted coordinates. -/
theorem mmC_apply (x : FVec Ideal S400x128 .f32) (w : FVec Ideal S128x64 .f32) (j : Fin 400) (k : Fin 64) :
    matmul (F := Ideal) dot_S400x128_S128x64_S400x64_1_0_0_1_n_n none x w (constant (F := Ideal) S400x64 .f32 0x00000000#32) (ix2 j k)
      = ∑ l : Fin 128, x (ix2 j l) * w (ix2 l k) := by
  refine (Ideal.matmul_constant_zero_apply dot_S400x128_S128x64_S400x64_1_0_0_1_n_n none x w (ix2 j k)).trans ?_
  rw [← Equiv.sum_comp (contrEquiv1 dot_S400x128_S128x64_S400x64_1_0_0_1_n_n 128 rfl rfl).symm]
  refine Finset.sum_congr rfl fun l _ => ?_
  have hk := contrEquiv1_symm_val dot_S400x128_S128x64_S400x64_1_0_0_1_n_n 128 rfl rfl l
  have el : dot_S400x128_S128x64_S400x64_1_0_0_1_n_n.lhsIdx (ix2 j k) ((contrEquiv1 dot_S400x128_S128x64_S400x64_1_0_0_1_n_n 128 rfl rfl).symm l) = ix2 j l := funext fun a => Fin.ext (by
    match a with
    | ⟨0, _⟩ => exact lhsC_0 _ _
    | ⟨1, _⟩ => exact (lhsC_1 _ _).trans hk)
  have er : dot_S400x128_S128x64_S400x64_1_0_0_1_n_n.rhsIdx (ix2 j k) ((contrEquiv1 dot_S400x128_S128x64_S400x64_1_0_0_1_n_n 128 rfl rfl).symm l) = ix2 l k := funext fun a => Fin.ext (by
    match a with
    | ⟨0, _⟩ => exact (rhsC_0 _ _).trans hk
    | ⟨1, _⟩ => exact rhsC_1 _ _)
  rw [el, er]

/-! ## The payloads -/

/-- (x · W1) at (j, k). -/
theorem pay1_apply (x : FVec Ideal S10000x128 .f32) (w : FVec Ideal S128x128 .f32) (j : Fin 10000) (k : Fin 128) :
    k0_pay1 (F := Ideal) x w (ix2 j k) = ∑ l : Fin 128, x (ix2 j l) * w (ix2 l k) := by
  unfold k0_pay1
  rw [shapeCast_self]
  exact mmA_apply x w j k

/-- The bias row [1, 128] broadcast to [400, 128], at (r, k): the row's entry k. -/
theorem bias_apply (b : FVec Ideal S1x128 .f32) (r : Fin 400) (k : Fin 128) :
    broadcastTo S400x128 (shapeCast S1x128 b shapeCasts_S1x128_S1x128) broadcasts_S1x128_S400x128 (ix2 r k) = b (ix2 0 k) := by
  rw [shapeCast_self]
  refine broadcastTo_apply b broadcasts_S1x128_S400x128 (ix2 r k) (ix2 0 k) fun a => ?_
  match a with
  | ⟨0, _⟩ => rfl
  | ⟨1, _⟩ => rfl

/-- (relu (a · s + b) · w) at (r, c), a the 400 adjacency rows of the point. -/
theorem pay2_apply (a : FVec Ideal S400x10000 .f32) (s : FVec Ideal S10000x128 .f32) (b : FVec Ideal S1x128 .f32)
    (w : FVec Ideal S128x64 .f32) (r : Fin 400) (c : Fin 64) :
    k0_pay2 (F := Ideal) a s b w (ix2 r c)
      = ∑ k : Fin 128, max ((∑ j : Fin 10000, a (ix2 r j) * s (ix2 j k)) + b (ix2 0 k)) 0 * w (ix2 k c) := by
  unfold k0_pay2
  rw [shapeCast_self]
  refine (mmC_apply _ w r c).trans ?_
  refine Finset.sum_congr rfl fun k _ => ?_
  rw [maximumf_apply, addf_apply, broadcast_apply, mmB_apply a s r k, bias_apply b r k]
  show max _ (Ideal.ofBits .f32 0x00000000#32) * _ = _
  rw [Ideal.ofBits_zero_f32]

end Cert.KernelIdeal.PayAt

end
-- ==== Proof.KernelIdeal.Pay3.lean ====
/-
  The phase-1 payload read at an index on the extended reals: the log-softmax, along the 64 classes, of
  adjRows · s2 + b2.
-/
import proofs.«128685_g29824252903679_cont_9to1_81_4_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.PayAt

open Idealize.ShloMosaic Idealize.ShloMosaic.TcCoe Idealize.ShloMosaic.ValueIdx
open Cert.KernelIdeal Cert.KernelIdeal.Gen

/-- (a · s + b) at (r, c). -/
def logitsRow (a : FVec Ideal S400x10000 .f32) (s : FVec Ideal S10000x64 .f32) (b : FVec Ideal S1x64 .f32)
    (r : Fin 400) (c : Fin 64) : EReal :=
  (∑ j : Fin 10000, a (ix2 r j) * s (ix2 j c)) + b (ix2 0 c)

/-- The maximum of row r, folded from the payload's starting literal. -/
def rowMax (a : FVec Ideal S400x10000 .f32) (s : FVec Ideal S10000x64 .f32) (b : FVec Ideal S1x64 .f32) (r : Fin 400) : EReal :=
  (Finset.univ : Finset (Fin 64)).fold max (Ideal.ofBits .f32 0xFF800000#32) (fun c => logitsRow a s b r c)

/-! ## A vector kept as a column, and a column broadcast along the rows -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The product read at an index -/

theorem lhs_0 (i : S400x64.Idx) (q : dot_S400x10000_S10000x64_S400x64_1_0_0_1_n_n.contr.Idx) :
    (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
  rfl
theorem lhs_1 (i : S400x64.Idx) (q : dot_S400x10000_S10000x64_S400x64_1_0_0_1_n_n.contr.Idx) :
    (dot_S400x10000_S10000x64_S400x64_1_0_0_1_n_n.lhsIdx i q 1).val = (q ⟨0, by decide⟩).val :=
  dot_S400x10000_S10000x64_S400x64_1_0_0_1_n_n.lhsIdx_val_of_single rfl i q
theorem rhs_0 (i : S400x64.Idx) (q : dot_S400x10000_S10000x64_S400x64_1_0_0_1_n_n.contr.Idx) :
    (dot_S400x10000_S10000x64_S400x64_1_0_0_1_n_n.rhsIdx i q 0).val = (q ⟨0, by decide⟩).val :=
  dot_S400x10000_S10000x64_S400x64_1_0_0_1_n_n.rhsIdx_val_of_single rfl i q
theorem rhs_1 (i : S400x64.Idx) (q : dot_S400x10000_S10000x64_S400x64_1_0_0_1_n_n.contr.Idx) :
    (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
  rfl

/-- The product into the zero splat, at (p, q): the sum over the 10000 contracted positions. -/
theorem matmul_at (a : FVec Ideal S400x10000 .f32) (s : FVec Ideal S10000x64 .f32) (p : Fin 400) (q : Fin 64) :
    matmul dot_S400x10000_S10000x64_S400x64_1_0_0_1_n_n none a s (constant S400x64 .f32 0x00000000#32) (ix2 p q)
      = ∑ j : Fin 10000, a (ix2 p j) * s (ix2 j q) := by
  simp only [matmul]
  rw [Ideal.matmul_constant_zero_apply, ← Equiv.sum_comp (contrEquiv1 dot_S400x10000_S10000x64_S400x64_1_0_0_1_n_n 10000 rfl rfl).symm]
  refine Finset.sum_congr rfl fun k _ => ?_
  have hk := contrEquiv1_symm_val dot_S400x10000_S10000x64_S400x64_1_0_0_1_n_n 10000 rfl rfl k
  have el : dot_S400x10000_S10000x64_S400x64_1_0_0_1_n_n.lhsIdx (ix2 p q) ((contrEquiv1 dot_S400x10000_S10000x64_S400x64_1_0_0_1_n_n 10000 rfl rfl).symm k) = ix2 p k := funext fun ax => Fin.ext (by
    match ax with
    | ⟨0, _⟩ => exact lhs_0 _ _
    | ⟨1, _⟩ => exact (lhs_1 _ _).trans hk)
  have er : dot_S400x10000_S10000x64_S400x64_1_0_0_1_n_n.rhsIdx (ix2 p q) ((contrEquiv1 dot_S400x10000_S10000x64_S400x64_1_0_0_1_n_n 10000 rfl rfl).symm k) = ix2 k q := funext fun ax => Fin.ext (by
    match ax with
    | ⟨0, _⟩ => exact (rhs_0 _ _).trans hk
    | ⟨1, _⟩ => exact rhs_1 _ _)
  rw [el, er]

/-! ## The lane reductions read at a row -/

/-- The row index with the lane put back is (p, k). -/
theorem lift_at (h : S400x64.Reduces [1] S400) (p : Fin 400) (k : Fin 64) : h.lift (ix1 p) k = ix2 p k :=
  funext fun ax => Fin.ext (by
    match ax with
    | ⟨0, _⟩ => rfl
    | ⟨1, _⟩ => rfl)

/-- The lane maximum at row p: the fold of max over the 64 lanes from the starting literal. -/
theorem laneMax_at (x : FVec Ideal S400x64 .f32) (h : S400x64.Reduces [1] S400) (hφ : FKind.Formats .f32)
    (hacc : (0xFF800000#32 : BitVec 32) = FKind.maximumf.neutral .f32 hφ) (p : Fin 400) :
    multiReduction .maximumf [1] S400 x 0xFF800000#32 h hφ hacc (ix1 p)
      = (Finset.univ : Finset (Fin 64)).fold max (Ideal.ofBits .f32 0xFF800000#32) (fun k => x (ix2 p k)) := by
  refine (Ideal.multiReduction_maximumf_single x 0xFF800000#32 h hφ hacc (ix1 p)).trans ?_
  have e : (x ∘ h.lift (ix1 p)) = fun k : Fin 64 => x (ix2 p k) := funext fun k => congrArg x (lift_at h p k)
  rw [e]
  rfl

/-- The lane sum at row p: the sum over the 64 lanes. -/
theorem laneSum_at (x : FVec Ideal S400x64 .f32) (h : S400x64.Reduces [1] S400) (hφ : FKind.Formats .f32)
    (hacc : (0x00000000#32 : BitVec 32) = FKind.add.neutral .f32 hφ) (p : Fin 400) :
    multiReduction .add [1] S400 x 0x00000000#32 h hφ hacc (ix1 p) = ∑ k : Fin 64, x (ix2 p k) := by
  refine (Ideal.multiReduction_add_single x 0x00000000#32 h hφ hacc (ix1 p)).trans ?_
  exact Finset.sum_congr rfl fun k _ => congrArg x (lift_at h p k)

/-! ## The payload's steps read at an index -/

theorem exp_apply {sh : Shape} (x : FVec Ideal sh .f32) (i : sh.Idx) : exp x i = Ideal.exp (x i) := rfl
theorem log_apply {sh : Shape} (x : FVec Ideal sh .f32) (i : sh.Idx) : log x i = Ideal.log (x i) := rfl

/-- The product plus the broadcast bias row, at (p, q). -/
theorem logits_at (a : FVec Ideal S400x10000 .f32) (s : FVec Ideal S10000x64 .f32) (b : FVec Ideal S1x64 .f32)
    (h1 : S1x64.ShapeCasts S1x64) (h2 : S1x64.Broadcasts S400x64) (p : Fin 400) (q : Fin 64) :
    addf (matmul dot_S400x10000_S10000x64_S400x64_1_0_0_1_n_n none a s (constant S400x64 .f32 0x00000000#32))
        (broadcastTo S400x64 (shapeCast S1x64 b h1) h2) (ix2 p q) = logitsRow a s b p q := by
  rw [addf_apply, matmul_at, shapeCast_self, broadcastTo_1b_ab_apply]
  rfl

/-- The row maximum kept as a column and broadcast back, at (p, q): the fold of max over row p. -/
theorem colMax_at (x : FVec Ideal S400x64 .f32) (h : S400x64.Reduces [1] S400) (hφ : FKind.Formats .f32)
    (hacc : (0xFF800000#32 : BitVec 32) = FKind.maximumf.neutral .f32 hφ) (hc : S400.ShapeCasts S400x1)
    (hb : S400x1.Broadcasts S400x64) (p : Fin 400) (q : Fin 64) :
    broadcastTo S400x64 (shapeCast S400x1 (multiReduction .maximumf [1] S400 x 0xFF800000#32 h hφ hacc) hc) hb (ix2 p q)
      = (Finset.univ : Finset (Fin 64)).fold max (Ideal.ofBits .f32 0xFF800000#32) (fun k => x (ix2 p k)) := by
  rw [broadcastTo_a1_ab_apply, shapeCast_a_a1_apply, laneMax_at]

/-- The log-softmax along the lanes, as the payload computes it, at (p, q). -/
theorem logSoftmax_at (x : FVec Ideal S400x64 .f32) (h : S400x64.Reduces [1] S400) (hφ : FKind.Formats .f32)
    (haccM : (0xFF800000#32 : BitVec 32) = FKind.maximumf.neutral .f32 hφ)
    (haccS : (0x00000000#32 : BitVec 32) = FKind.add.neutral .f32 hφ) (hc : S400.ShapeCasts S400x1)
    (hb : S400x1.Broadcasts S400x64) (p : Fin 400) (q : Fin 64) :
    subf (subf x (broadcastTo S400x64 (shapeCast S400x1 (multiReduction .maximumf [1] S400 x 0xFF800000#32 h hφ haccM) hc) hb))
        (broadcastTo S400x64
          (log (shapeCast S400x1
            (multiReduction .add [1] S400
              (exp (subf x (broadcastTo S400x64 (shapeCast S400x1 (multiReduction .maximumf [1] S400 x 0xFF800000#32 h hφ haccM) hc) hb)))
              0x00000000#32 h hφ haccS) hc)) hb) (ix2 p q)
      = (x (ix2 p q) - (Finset.univ : Finset (Fin 64)).fold max (Ideal.ofBits .f32 0xFF800000#32) (fun k => x (ix2 p k)))
          - Ideal.log (∑ k : Fin 64, Ideal.exp (x (ix2 p k)
              - (Finset.univ : Finset (Fin 64)).fold max (Ideal.ofBits .f32 0xFF800000#32) (fun k' => x (ix2 p k')))) := by
  rw [subf_apply, subf_apply, colMax_at, broadcastTo_a1_ab_apply, log_apply, shapeCast_a_a1_apply, laneSum_at]
  refine congrArg (HSub.hSub _) (congrArg Ideal.log (Finset.sum_congr rfl fun k _ => ?_))
  rw [exp_apply, subf_apply, colMax_at]

theorem pay3_apply (a : FVec Ideal S400x10000 .f32) (s : FVec Ideal S10000x64 .f32) (b : FVec Ideal S1x64 .f32)
    (r : Fin 400) (c : Fin 64) :
    k0_pay3 (F := Ideal) a s b (ix2 r c)
      = (logitsRow a s b r c - rowMax a s b r)
          - Ideal.log (∑ c' : Fin 64, Ideal.exp (logitsRow a s b r c' - rowMax a s b r)) := by
  unfold k0_pay3
  refine (logSoftmax_at _ _ _ _ _ _ _ r c).trans ?_
  simp only [logits_at]
  rfl

end Cert.KernelIdeal.PayAt

end
-- ==== Proof.Spec.lean ====
/-
  The function both programs compute, index by index, on the extended reals:

    support = x · W1,   hidden = max (adj · support + b1) 0,   proj = hidden · W2,
    logits  = adj · proj + b2,   result = (logits − rowMax) − log Σ exp (logits − rowMax),

  the row maximum folded from the literal the programs fold it from (never evaluated: any value below
  every fold works the same), every matrix product a plain finite sum over the contracted axis.
-/
import Idealize.ShloMosaic.PureOps.Ideal
import Idealize.ShloMosaic.PureOps.Ideal.Laws
import Idealize.ShloMosaic.Lib.ValueIdx

noncomputable section

namespace Cert.GcnSpec

open Idealize.ShloMosaic Idealize.ShloMosaic.ValueIdx

/-- A matrix of extended reals over a literal rank-2 index type. -/
abbrev Mat (r c : ℕ) : Type := (⟨2, ![r, c]⟩ : Shape).Idx → EReal
/-- A vector of extended reals over a literal rank-1 index type. -/
abbrev Row (n : ℕ) : Type := (⟨1, ![n]⟩ : Shape).Idx → EReal

variable (X : Mat 10000 128) (A : Mat 10000 10000) (W1 : Mat 128 128) (B1 : Row 128) (W2 : Mat 128 64) (B2 : Row 64)

/-- (x · W1) at (j, k). -/
def support (j : Fin 10000) (k : Fin 128) : EReal := ∑ l : Fin 128, X (ix2 j l) * W1 (ix2 l k)

/-- relu (adj · support + b1) at (r, k). -/
def hidden (r : Fin 10000) (k : Fin 128) : EReal :=
  max ((∑ j : Fin 10000, A (ix2 r j) * support X W1 j k) + B1 (ix1 k)) 0

/-- (hidden · W2) at (r, c). -/
def proj (r : Fin 10000) (c : Fin 64) : EReal := ∑ k : Fin 128, hidden X A W1 B1 r k * W2 (ix2 k c)

/-- (adj · proj + b2) at (r, c). -/
def logits (r : Fin 10000) (c : Fin 64) : EReal :=
  (∑ j : Fin 10000, A (ix2 r j) * proj X A W1 B1 W2 j c) + B2 (ix1 c)

/-- The maximum of row r of the logits, folded from the programs' starting literal. -/
def rowMax (r : Fin 10000) : EReal :=
  (Finset.univ : Finset (Fin 64)).fold max (Ideal.ofBits .f32 0xFF800000#32) (fun c => logits X A W1 B1 W2 B2 r c)

/-- log_softmax of the logits along the 64 classes. -/
def result : Mat 10000 64 := fun j =>
  (logits X A W1 B1 W2 B2 (j 0) (j 1) - rowMax X A W1 B1 W2 B2 (j 0))
    - Ideal.log (∑ c : Fin 64, Ideal.exp (logits X A W1 B1 W2 B2 (j 0) c - rowMax X A W1 B1 W2 B2 (j 0)))

end Cert.GcnSpec

end
-- ==== Proof.KernelIdeal.OutSpec.lean ====
/-
  On the extended reals the kernel's whole-array result `out` is the specification's function of the six
  argument arrays: the blocks are read back as array entries, the payloads as sums, row block by row block.
-/
import proofs.«128685_g29824252903679_cont_9to1_81_4_alg».proof.Proof.KernelIdeal.Blocks
import proofs.«128685_g29824252903679_cont_9to1_81_4_alg».proof.Proof.KernelIdeal.Pay12
import proofs.«128685_g29824252903679_cont_9to1_81_4_alg».proof.Proof.KernelIdeal.Pay3
import proofs.«128685_g29824252903679_cont_9to1_81_4_alg».proof.Proof.Spec

set_option maxRecDepth 16384

noncomputable section

namespace Cert.KernelIdeal.Body

open Idealize.ShloMosaic Idealize.ShloMosaic.TcCoe Idealize.ShloMosaic.ValueIdx
open Idealize.SL Idealize.SL.Sem
open Cert.KernelIdeal Cert.KernelIdeal.Gen

/-- A row below 10000 is 400 times its block plus its place in the block. -/
theorem row_split (j : Fin 10000) (h : 400 * (j.val / 400) + j.val % 400 < 10000) :
    (⟨400 * (j.val / 400) + j.val % 400, h⟩ : Fin 10000) = j := Fin.ext (Nat.div_add_mod j.val 400)

/-- The first scratch holds the support x · W1. -/
theorem s1_apply (m : (ℓ : Loc nD τ sig) → Buf (Elt Ideal) ℓ) (c : Dev nD) (j : Fin 10000) (k : Fin 128) :
    s1 (F := Ideal) m c (ix2 j k) = Cert.GcnSpec.support (m ((c.tc : Thread nD τ).loc main_arg0)) (m ((c.tc : Thread nD τ).loc main_arg2)) j k := by
  unfold s1 Cert.GcnSpec.support
  refine (PayAt.pay1_apply _ _ j k).trans ?_
  rw [blk0_eq, blk2_eq, V_main_arg0, V_main_arg2]

/-- Row block i of the second scratch holds rows 400 i … of the projection hidden · W2. -/
theorem s2rows_apply (m : (ℓ : Loc nD τ sig) → Buf (Elt Ideal) ℓ) (c : Dev nD) (i : Fin 25) (r : Fin 400) (cc : Fin 64) :
    s2rows (F := Ideal) m c i (ix2 r cc)
      = Cert.GcnSpec.proj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) ⟨400 * i.val + r.val, by have := i.isLt; have := r.isLt; omega⟩ cc := by
  unfold s2rows Cert.GcnSpec.proj Cert.GcnSpec.hidden
  refine (PayAt.pay2_apply _ _ _ _ r cc).trans ?_
  refine Finset.sum_congr rfl fun k _ => ?_
  refine congrArg₂ (fun u v : EReal => u * v) (congrArg (fun u : EReal => max u 0)
    (congrArg₂ (fun u v : EReal => u + v) (Finset.sum_congr rfl fun j _ => ?_) ?_)) ?_
  · rw [blk1_apply, V_main_arg1, s1_apply]
  · rw [blk3_eq, v0_apply]
  · rw [blk4_eq, V_main_arg4]

/-- The second scratch whole holds the projection. -/
theorem s2_apply (m : (ℓ : Loc nD τ sig) → Buf (Elt Ideal) ℓ) (c : Dev nD) (j : Fin 10000) (cc : Fin 64) :
    s2 (F := Ideal) m c (ix2 j cc) = Cert.GcnSpec.proj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) j cc := by
  unfold s2
  show s2rows (F := Ideal) m c ⟨j.val / 400, _⟩ (ix2 ⟨j.val % 400, _⟩ cc) = _
  rw [s2rows_apply]
  exact congrArg (fun R => Cert.GcnSpec.proj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) R cc) (row_split j _)

/-- A row of the phase-1 logits is the specification's row 400 i + r. -/
theorem logitsRow_eq (m : (ℓ : Loc nD τ sig) → Buf (Elt Ideal) ℓ) (c : Dev nD) (i : Fin 25) (r : Fin 400) (cc : Fin 64) :
    PayAt.logitsRow (iblk m c 1 (pt i.val (by omega))) (s2 (F := Ideal) m c) (iblk m c 5 t0) r cc
      = Cert.GcnSpec.logits (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) ⟨400 * i.val + r.val, by have := i.isLt; have := r.isLt; omega⟩ cc := by
  unfold PayAt.logitsRow Cert.GcnSpec.logits
  refine congrArg₂ (fun u v : EReal => u + v) (Finset.sum_congr rfl fun j _ => ?_) ?_
  · rw [blk1_apply, V_main_arg1, s2_apply]
  · rw [blk5_eq, v1_apply]

/-- Its maximum is the specification's row maximum. -/
theorem rowMax_eq (m : (ℓ : Loc nD τ sig) → Buf (Elt Ideal) ℓ) (c : Dev nD) (i : Fin 25) (r : Fin 400) :
    PayAt.rowMax (iblk m c 1 (pt i.val (by omega))) (s2 (F := Ideal) m c) (iblk m c 5 t0) r
      = Cert.GcnSpec.rowMax (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) ⟨400 * i.val + r.val, by have := i.isLt; have := r.isLt; omega⟩ := by
  unfold PayAt.rowMax Cert.GcnSpec.rowMax
  exact congrArg (fun f : Fin 64 → EReal => (Finset.univ : Finset (Fin 64)).fold max (Ideal.ofBits .f32 0xFF800000#32) f)
    (funext fun cc => logitsRow_eq m c i r cc)

/-- Block i of the output holds rows 400 i … of the result. -/
theorem outRows_apply (m : (ℓ : Loc nD τ sig) → Buf (Elt Ideal) ℓ) (c : Dev nD) (i : Fin 25) (r : Fin 400) (cc : Fin 64) :
    outRows (F := Ideal) m c i (ix2 r cc)
      = Cert.GcnSpec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix2 ⟨400 * i.val + r.val, by have := i.isLt; have := r.isLt; omega⟩ cc) := by
  unfold outRows
  refine (PayAt.pay3_apply _ _ _ r cc).trans ?_
  rw [rowMax_eq, logitsRow_eq]
  have hs : (∑ c' : Fin 64, Ideal.exp (PayAt.logitsRow (iblk m c 1 (pt i.val (by omega))) (s2 (F := Ideal) m c) (iblk m c 5 t0) r c'
        - Cert.GcnSpec.rowMax (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) ⟨400 * i.val + r.val, by have := i.isLt; have := r.isLt; omega⟩))
      = ∑ c' : Fin 64, Ideal.exp (Cert.GcnSpec.logits (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) ⟨400 * i.val + r.val, by have := i.isLt; have := r.isLt; omega⟩ c'
        - Cert.GcnSpec.rowMax (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) ⟨400 * i.val + r.val, by have := i.isLt; have := r.isLt; omega⟩) :=
    Finset.sum_congr rfl fun c' _ => by rw [logitsRow_eq]
  rw [hs]
  rfl

theorem out_eq_spec (m : (ℓ : Loc nD τ sig) → Buf (Elt Ideal) ℓ) (c : Dev nD) :
    out (F := Ideal) m c
      = Cert.GcnSpec.result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  funext j
  obtain ⟨p, q, rfl⟩ : ∃ (p : Fin 10000) (q : Fin 64), j = ix2 p q := ⟨j 0, j 1, eq_ix2 j⟩
  unfold out
  show outRows (F := Ideal) m c ⟨p.val / 400, _⟩ (ix2 ⟨p.val % 400, _⟩ q) = _
  rw [outRows_apply]
  exact congrArg (fun R => Cert.GcnSpec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix2 R q)) (row_split p _)

end Cert.KernelIdeal.Body

end
-- ==== Proof.RefValue.lean ====
/-
  The reference's run read back: its result array is the specification's function of its arguments.
-/
import proofs.«128685_g29824252903679_cont_9to1_81_4_alg».proof.Proof.RefRead
import proofs.«128685_g29824252903679_cont_9to1_81_4_alg».proof.Proof.Spec
import Idealize.ShloMosaic.PureOps.Reduce
import Mathlib.Data.Finset.Fold

set_option maxRecDepth 16384

noncomputable section

namespace Cert.ReferenceIdeal.RefValue

open Idealize.ShloMosaic Idealize.ShloMosaic.TcCoe Idealize.ShloMosaic.ValueIdx
open Idealize.SL Idealize.SL.Sem
open Cert.ReferenceIdeal Cert.ReferenceIdeal.Gen Cert.ReferenceIdeal.ReadP

/-! ## The stages, from the inside out

Each stage of the reference is read at an index given by its coordinates, `ix2 r k` or `ix1 r`, and identified with the
specification's function of the same name. The composed index functions of the layout operations and of the
contractions are identified with `ix1` / `ix2` coordinate by coordinate. -/

section Stages

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))

/-- Two rank-2 indices with the same coordinates are equal. -/
local macro "idx2_eq" : tactic =>
  `(tactic| exact funext fun a => Fin.ext (by match a with | ⟨0, _⟩ => rfl | ⟨1, _⟩ => rfl))
/-- Two rank-1 indices with the same coordinate are equal. -/
local macro "idx1_eq" : tactic =>
  `(tactic| exact funext fun a => Fin.ext (by match a with | ⟨0, _⟩ => rfl))

/-- x · W1 at (r, k). -/
theorem v0_eq (r : Fin 10000) (k : Fin 128) :
    val_main_v0 (F := Ideal) x0 x2 (ix2 r k) = Cert.GcnSpec.support x0 x2 r k := by
  rw [val_main_v0_apply]
  unfold Cert.GcnSpec.support
  refine Finset.sum_congr rfl fun l _ => ?_
  have el : lidx_main_v0 (ix2 r k) l = ix2 r l := by idx2_eq
  have er : ridx_main_v0 (ix2 r k) l = ix2 l k := by idx2_eq
  rw [el, er]

/-- relu (adj · support + b1) at (r, k): the relu's zero is the literal 0, the bias is read through its two broadcasts. -/
theorem v5_eq (r : Fin 10000) (k : Fin 128) :
    val_main_v5 (F := Ideal) x0 x1 x2 x3 (ix2 r k) = Cert.GcnSpec.hidden x0 x1 x2 x3 r k := by
  rw [val_main_v5_apply, val_main_v4_apply, val_main_v1_apply, val_main_call0_v0_apply, val_main_call0_cst_apply,
    val_main_v3_apply, val_main_v2_apply]
  unfold Cert.GcnSpec.hidden
  have hs : ∀ j : Fin 10000, x1 (lidx_main_v1 (ix2 r k) j) * val_main_v0 (F := Ideal) x0 x2 (ridx_main_v1 (ix2 r k) j)
      = x1 (ix2 r j) * Cert.GcnSpec.support x0 x2 j k := fun j => by
    have el : lidx_main_v1 (ix2 r k) j = ix2 r j := by idx2_eq
    have er : ridx_main_v1 (ix2 r k) j = ix2 j k := by idx2_eq
    rw [el, er, v0_eq]
  have hb : idx_main_v2 (idx_main_v3 (ix2 r k)) = ix1 k := by idx1_eq
  rw [Finset.sum_congr rfl (fun j _ => hs j), hb, Ideal.maximumf_def, Ideal.addf_def, Ideal.ofBits_def, Ideal.ofBits_zero_f32]

/-- hidden · W2 at (r, c). -/
theorem v6_eq (r : Fin 10000) (c : Fin 64) :
    val_main_v6 (F := Ideal) x0 x1 x2 x3 x4 (ix2 r c) = Cert.GcnSpec.proj x0 x1 x2 x3 x4 r c := by
  rw [val_main_v6_apply]
  unfold Cert.GcnSpec.proj
  refine Finset.sum_congr rfl fun k _ => ?_
  have el : lidx_main_v6 (ix2 r c) k = ix2 r k := by idx2_eq
  have er : ridx_main_v6 (ix2 r c) k = ix2 k c := by idx2_eq
  rw [el, er, v5_eq]

/-- adj · proj + b2 at (r, c). -/
theorem v10_eq (r : Fin 10000) (c : Fin 64) :
    val_main_v10 (F := Ideal) x0 x1 x2 x3 x4 x5 (ix2 r c) = Cert.GcnSpec.logits x0 x1 x2 x3 x4 x5 r c := by
  rw [val_main_v10_apply, val_main_v7_apply, val_main_v9_apply, val_main_v8_apply]
  unfold Cert.GcnSpec.logits
  have hs : ∀ j : Fin 10000, x1 (lidx_main_v7 (ix2 r c) j) * val_main_v6 (F := Ideal) x0 x1 x2 x3 x4 (ridx_main_v7 (ix2 r c) j)
      = x1 (ix2 r j) * Cert.GcnSpec.proj x0 x1 x2 x3 x4 j c := fun j => by
    have el : lidx_main_v7 (ix2 r c) j = ix2 r j := by idx2_eq
    have er : ridx_main_v7 (ix2 r c) j = ix2 j c := by idx2_eq
    rw [el, er, v6_eq]
  have hb : idx_main_v8 (idx_main_v9 (ix2 r c)) = ix1 c := by idx1_eq
  rw [Finset.sum_congr rfl (fun j _ => hs j), hb, Ideal.addf_def]

/-- The reduction with a maximum body over the 64 classes, at row r: the fold of max over the row of the logits,
    from the reduction's starting literal. -/
theorem call1_v0_eq (r : Fin 10000) :
    val_main_call1_v0 (F := Ideal) x0 x1 x2 x3 x4 x5 (ix1 r) = Cert.GcnSpec.rowMax x0 x1 x2 x3 x4 x5 r := by
  unfold val_main_call1_v0 Cert.GcnSpec.rowMax
  have h : S10000x64.Reduces [1] S10000 := by decide
  rw [Host.reduce_eq_fold_single (FloatOps.maximumf (F := Ideal) (φ := .f32)) _ _ reducesTo_S10000x64_S10000_d1 h h_S_]
  have hf : (val_main_v10 (F := Ideal) x0 x1 x2 x3 x4 x5 ∘ h.lift (ix1 r))
      = fun c : Fin 64 => Cert.GcnSpec.logits x0 x1 x2 x3 x4 x5 r c := funext fun c => by
    have e : h.lift (ix1 r) c = ix2 (n1 := 64) r c := by idx2_eq
    exact (congrArg (val_main_v10 (F := Ideal) x0 x1 x2 x3 x4 x5) e).trans (v10_eq x0 x1 x2 x3 x4 x5 r c)
  rw [hf]
  rfl

/-- The row maximum as the reference takes it: the maximum of the starting literal and the fold, which is the fold,
    since a fold of max is at least its starting value. -/
theorem call1_v2_eq (r : Fin 10000) :
    val_main_call1_v2 (F := Ideal) x0 x1 x2 x3 x4 x5 (ix1 r) = Cert.GcnSpec.rowMax x0 x1 x2 x3 x4 x5 r := by
  rw [val_main_call1_v2_apply, val_main_call1_v1_apply, val_main_call1_cst_0_apply, call1_v0_eq, Ideal.maximumf_def,
    Ideal.ofBits_def]
  unfold Cert.GcnSpec.rowMax
  exact max_eq_right ((Finset.le_fold_max _).mpr (Or.inl le_rfl))

/-- logits − rowMax at (r, c): the row maximum is read through its two broadcasts. -/
theorem call1_v5_eq (r : Fin 10000) (c : Fin 64) :
    val_main_call1_v5 (F := Ideal) x0 x1 x2 x3 x4 x5 (ix2 r c)
      = Cert.GcnSpec.logits x0 x1 x2 x3 x4 x5 r c - Cert.GcnSpec.rowMax x0 x1 x2 x3 x4 x5 r := by
  rw [val_main_call1_v5_apply, val_main_call1_v4_apply, val_main_call1_v3_apply, v10_eq, Ideal.subf_def]
  have e : idx_main_call1_v3 (idx_main_call1_v4 (ix2 r c)) = ix1 r := by idx1_eq
  rw [e, call1_v2_eq]

/-- The result at (r, c): the sum of the exponentials starts from the literal 0. -/
theorem v11_eq (r : Fin 10000) (c : Fin 64) :
    val_main_v11 (F := Ideal) x0 x1 x2 x3 x4 x5 (ix2 r c) = Cert.GcnSpec.result x0 x1 x2 x3 x4 x5 (ix2 r c) := by
  rw [val_main_v11_apply, call1_v5_eq, val_main_call1_v10_apply, val_main_call1_v9_apply, val_main_call1_v8_apply,
    val_main_call1_v7_apply, val_main_call1_cst_1_apply]
  have hk : ∀ k : Fin 64, val_main_call1_v6 (F := Ideal) x0 x1 x2 x3 x4 x5
        (idx_main_call1_v7 (idx_main_call1_v8 (idx_main_call1_v10 (ix2 r c))) k)
      = Ideal.exp (Cert.GcnSpec.logits x0 x1 x2 x3 x4 x5 r k - Cert.GcnSpec.rowMax x0 x1 x2 x3 x4 x5 r) := fun k => by
    have e : idx_main_call1_v7 (idx_main_call1_v8 (idx_main_call1_v10 (ix2 r c))) k = ix2 r k := by idx2_eq
    rw [e, val_main_call1_v6_apply, call1_v5_eq, Ideal.hostUnary_exp_def]
  rw [Finset.sum_congr rfl (fun k _ => hk k), Ideal.subf_def, Ideal.hostUnary_log_def, Ideal.ofBits_def,
    Ideal.ofBits_zero_f32, zero_add]
  rfl

/-- The reference's last stage is the specification's function. -/
theorem v11_fun : val_main_v11 (F := Ideal) x0 x1 x2 x3 x4 x5 = Cert.GcnSpec.result x0 x1 x2 x3 x4 x5 := by
  funext i
  obtain ⟨a, b, rfl⟩ : ∃ (a : Fin 10000) (b : Fin 64), i = ix2 a b := ⟨i 0, i 1, eq_ix2 i⟩
  exact v11_eq x0 x1 x2 x3 x4 x5 a b

end Stages

theorem ref_eq_spec (m : (ℓ : Loc nD τ sig) → Buf (Elt Ideal) ℓ) (c : Dev nD) :
    Cert.ReferenceIdeal.ValueP.res_out0 (F := Ideal) m c
      = Cert.GcnSpec.result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  (ReadP.val_main_v11_eq (F := Ideal) m c).trans (v11_fun _ _ _ _ _ _)

end Cert.ReferenceIdeal.RefValue

end
-- ==== Proof.lean ====
/- The proof of `Cert.Claim`. Both programs compute log_softmax (adj · (relu (adj · (x · W1) + b1) · W2) + b2) with the
   products grouped the same way, so on the extended reals the kernel's result array and the reference's are, element by
   element, one function of the six arguments; no finiteness of the arguments is used. Each program's run terminates with
   its arguments unchanged, the kernel's at both float families. -/
import proofs.«128685_g29824252903679_cont_9to1_81_4_alg».proof.Defs
import proofs.«128685_g29824252903679_cont_9to1_81_4_alg».proof.Proof.Gen.Kernel
import proofs.«128685_g29824252903679_cont_9to1_81_4_alg».proof.Proof.Gen.KernelIdeal
import proofs.«128685_g29824252903679_cont_9to1_81_4_alg».proof.Proof.Gen.ReferenceIdeal
import proofs.«128685_g29824252903679_cont_9to1_81_4_alg».proof.Proof.Gen.Pre_finite_inputs
import proofs.«128685_g29824252903679_cont_9to1_81_4_alg».proof.Proof.Kernel.Body
import proofs.«128685_g29824252903679_cont_9to1_81_4_alg».proof.Proof.KernelIdeal.Result
import proofs.«128685_g29824252903679_cont_9to1_81_4_alg».proof.Proof.KernelIdeal.OutSpec
import proofs.«128685_g29824252903679_cont_9to1_81_4_alg».proof.Proof.RefRun
import proofs.«128685_g29824252903679_cont_9to1_81_4_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel := fun m ρ _ => Cert.Kernel.Body.frame (F := Bits) m ρ

/-- The kernel on the extended reals runs and leaves its arguments as they were. -/
theorem frame_ki : Cert.frame_KernelIdeal := fun m ρ _ => Cert.KernelIdeal.Body.frame (F := Ideal) m ρ

/-- The reference on the extended reals runs and leaves its arguments as they were. -/
theorem frame_ri : Cert.frame_ReferenceIdeal := fun m ρ _ =>
  (θ_run Cert.ReferenceIdeal.defs _ _).mono (fun _ h c => (h c).2) (Cert.ReferenceIdeal.ValueP.run (F := Ideal) m ρ)

/-- On the extended reals the kernel's result array ends at the log-softmax of adj · s2 + b2, block by block, and the
    reference's at the same function of arguments that agree. -/
theorem algebraic : Cert.algebraic_KernelIdeal_ReferenceIdeal := by
  intro m ρ m' ρ' _ hagree
  refine ⟨fun c => Cert.KernelIdeal.Body.out (F := Ideal) m c, Cert.KernelIdeal.Body.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  refine (Cert.ReferenceIdeal.RefValue.ref_eq_spec m' c).trans ?_
  rw [(hagree c).1, (hagree c).2.1, (hagree c).2.2.1, (hagree c).2.2.2.1, (hagree c).2.2.2.2.1, (hagree c).2.2.2.2.2]
  exact (Cert.KernelIdeal.Body.out_eq_spec m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
